-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x256 : Shape := ⟨2, ![200000, 256]⟩
abbrev S512x512 : Shape := ⟨2, ![512, 512]⟩
abbrev S512 : Shape := ⟨1, ![512]⟩
abbrev S_ : Shape := ⟨0, ![]⟩

class Facts : Prop where
  bcast_S_S200000x256 : S_.BroadcastsInDim S200000x256 (![] : Fin 0 → Fin S200000x256.rank)
  reducesTo_S200000x256_S_d0_1 : S200000x256.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  main_v18

def fn {F : FTy → Type} [FloatOps F] (main_arg0 : FVec F S200000x256 .f32) (main_arg1 : FVec F S200000x256 .f32) (main_arg2 : FVec F S512x512 .f32) (main_arg3 : FVec F S512 .f32) : IVec S_ 1 :=
  let main_v0 : FVec F S200000x256 .f32 := Host.absf main_arg0
  let main_cst : FVec F S_ .f32 := constant S_ .f32 0x7F800000#32
  let main_v1 : FVec F S200000x256 .f32 := broadcastInDim S200000x256 ![] bcast_S_S200000x256 main_cst
  let main_v2 : IVec S200000x256 1 := cmpf .olt main_v0 main_v1
  let main_c : IVec S_ 1 := constantI S_ 1 1#1
  let main_v3 : IVec S_ 1 := (fun x v => Host.reduce IntOp.andi x v reducesTo_S200000x256_S_d0_1 h_S_) main_v2 main_c
  let main_v4 : FVec F S200000x256 .f32 := Host.absf main_arg1
  let main_cst_0 : FVec F S_ .f32 := constant S_ .f32 0x7F800000#32
  let main_v5 : FVec F S200000x256 .f32 := broadcastInDim S200000x256 ![] bcast_S_S200000x256 main_cst_0
  let main_v6 : IVec S200000x256 1 := cmpf .olt main_v4 main_v5
  let main_c_1 : IVec S_ 1 := constantI S_ 1 1#1
  let main_v7 : IVec S_ 1 := (fun x v => Host.reduce IntOp.andi x v reducesTo_S200000x256_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_v13 main_v16
-- ==== Kernel.lean ====
abbrev S200000x256 : Shape := ⟨2, ![200000, 256]⟩
abbrev S512x512 : Shape := ⟨2, ![512, 512]⟩
abbrev S512 : Shape := ⟨1, ![512]⟩
abbrev S1x512 : Shape := ⟨2, ![1, 512]⟩
abbrev S2000x256 : Shape := ⟨2, ![2000, 256]⟩
abbrev S2000x512 : Shape := ⟨2, ![2000, 512]⟩

abbrev nBuf : Space → Nat
  | .hbm => 9
  | .vmem => 8
  | .smem => 0
  | _ => 0

abbrev bufTy : (tb : Table) → Fin (tcTables nBuf tb) → BufTy
  | .hbm, ⟨0, _⟩ => ⟨S200000x256, .f32⟩
  | .hbm, ⟨1, _⟩ => ⟨S200000x256, .f32⟩
  | .hbm, ⟨2, _⟩ => ⟨S512x512, .f32⟩
  | .hbm, ⟨3, _⟩ => ⟨S512, .f32⟩
  | .hbm, ⟨4, _⟩ => ⟨S512x512, .bf16⟩
  | .hbm, ⟨5, _⟩ => ⟨S1x512, .f32⟩
  | .hbm, ⟨6, _⟩ => ⟨S1x512, .f32⟩
  | .hbm, ⟨7, _⟩ => ⟨S1x512, .f32⟩
  | .hbm, ⟨8, _⟩ => ⟨S1x512, .f32⟩
  | .local _ .vmem, ⟨0, _⟩ => ⟨S2000x256, .f32⟩
  | .local _ .vmem, ⟨1, _⟩ => ⟨S2000x256, .f32⟩
  | .local _ .vmem, ⟨2, _⟩ => ⟨S2000x256, .f32⟩
  | .local _ .vmem, ⟨3, _⟩ => ⟨S2000x256, .f32⟩
  | .local _ .vmem, ⟨4, _⟩ => ⟨S512x512, .bf16⟩
  | .local _ .vmem, ⟨5, _⟩ => ⟨S1x512, .f32⟩
  | .local _ .vmem, ⟨6, _⟩ => ⟨S1x512, .f32⟩
  | .local _ .vmem, ⟨7, _⟩ => ⟨S1x512, .f32⟩
  | _, _ => ⟨S200000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨2, ![2, 50], ![false, false]⟩

def k0_cond1 (i : grid0.Coords) : BitVec 1 :=
  let arg0 : BitVec 32 := BitVec.ofNat 32 (i 0).val
  let c0_i32 : BitVec 32 := 0#32
  let v16 : BitVec 1 := Scalar.cmpi .eq arg0 c0_i32
  let arg1 : BitVec 32 := BitVec.ofNat 32 (i 1).val
  let c0_i32_9 : BitVec 32 := 0#32
  let v17 : BitVec 1 := Scalar.cmpi .eq arg1 c0_i32_9
  let v18 : BitVec 1 := Scalar.andi v16 v17
  let v19 : BitVec 32 := Scalar.extui v18
  let c0_i32_10 : BitVec 32 := 0#32
  let v20 : BitVec 1 := Scalar.cmpi .ne v19 c0_i32_10
  v20

def k0_cond3 (i : grid0.Coords) : BitVec 1 :=
  let arg0 : BitVec 32 := BitVec.ofNat 32 (i 0).val
  let c0_i32_13 : BitVec 32 := 0#32
  let v26 : BitVec 1 := Scalar.cmpi .eq arg0 c0_i32_13
  let v27 : BitVec 32 := Scalar.extui v26
  let c0_i32_14 : BitVec 32 := 0#32
  let v28 : BitVec 1 := Scalar.cmpi .ne v27 c0_i32_14
  v28

def k0_cond2 (i : grid0.Coords) : BitVec 1 :=
  let arg0 : BitVec 32 := BitVec.ofNat 32 (i 0).val
  let c1_i32 : BitVec 32 := 1#32
  let v21 : BitVec 1 := Scalar.cmpi .eq arg0 c1_i32
  let arg1 : BitVec 32 := BitVec.ofNat 32 (i 1).val
  let c0_i32_11 : BitVec 32 := 0#32
  let v22 : BitVec 1 := Scalar.cmpi .eq arg1 c0_i32_11
  let v23 : BitVec 1 := Scalar.andi v21 v22
  let v24 : BitVec 32 := Scalar.extui v23
  let c0_i32_12 : BitVec 32 := 0#32
  let v25 : BitVec 1 := Scalar.cmpi .ne v24 c0_i32_12
  v25

def k0_cond4 (i : grid0.Coords) : BitVec 1 :=
  let arg0 : BitVec 32 := BitVec.ofNat 32 (i 0).val
  let c1_i32_15 : BitVec 32 := 1#32
  let v29 : BitVec 1 := Scalar.cmpi .eq arg0 c1_i32_15
  let v30 : BitVec 32 := Scalar.extui v29
  let c0_i32_16 : BitVec 32 := 0#32
  let v31 : BitVec 1 := Scalar.cmpi .ne v30 c0_i32_16
  v31

def cc0_transform_0 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

class Facts₀ : Prop where
  bitsLt_bf16_f32 : FTy.bits .bf16 < FTy.bits .f32
  shapeCasts_S512_S1x512 : S512.ShapeCasts S1x512
  inb_S2000x256_S2000x256_0_0 : ∀ a, (![0, 0] : Fin 2 → Nat) a + S2000x256.size a ≤ S2000x256.size a
  h_S2000x256 : 0 < S2000x256.numel
  concatenates_S2000x256_S2000x256_S2000x512_d1 : Shape.Concatenates [S2000x256, S2000x256] S2000x512 1
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  reduces_S2000x512_S512 : S2000x512.Reduces [0] S512
  dot_S2000x512_S512x512_S2000x512_1_1_0_0_n_n_wf : DotDims.WF S2000x512 S512x512 S2000x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S200000x256.size a
  hwx0_0 : ∀ i : grid0.Coords, EltTy.bits .f32 = 32 ∨ (Rect.block (s := S200000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S200000x256.size a
  hwx0_1 : ∀ i : grid0.Coords, EltTy.bits .f32 = 32 ∨ (Rect.block (s := S200000x256) S2000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)

variable [Facts₀]

def dot_S2000x512_S512x512_S2000x512_1_1_0_0_n_n : DotDims S2000x512 S512x512 S2000x512 where
  lhsContracting := [1]
  rhsContracting := [1]
  lhsNonContracting := [0]
  rhsNonContracting := [0]
  lhsBatch := []
  rhsBatch := []
  wf := dot_S2000x512_S512x512_S2000x512_1_1_0_0_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S1x512.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S1x512.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond1 i == 1#1) && !(k0_cond3 i == 1#1) | 5 => fun i => !(k0_cond2 i == 1#1) && !(k0_cond4 i == 1#1) | ⟨_ + 6, h⟩ => absurd h (Nat.not_lt.2 (Nat.le_add_left _ _))

class Facts : Prop extends Facts₀ where

variable [Facts]
-- ==== ReferenceIdeal.lean ====
abbrev S200000x256 : Shape := ⟨2, ![200000, 256]⟩
abbrev S512x512 : Shape := ⟨2, ![512, 512]⟩
abbrev S512 : Shape := ⟨1, ![512]⟩
abbrev S200000x512 : Shape := ⟨2, ![200000, 512]⟩
abbrev S1x512 : Shape := ⟨2, ![1, 512]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S200000x256, .f32⟩
  | .hbm, ⟨1, _⟩ => ⟨S200000x256, .f32⟩
  | .hbm, ⟨2, _⟩ => ⟨S512x512, .f32⟩
  | .hbm, ⟨3, _⟩ => ⟨S512, .f32⟩
  | .hbm, ⟨4, _⟩ => ⟨S200000x512, .f32⟩
  | .hbm, ⟨5, _⟩ => ⟨S512x512, .f32⟩
  | .hbm, ⟨6, _⟩ => ⟨S200000x512, .f32⟩
  | .hbm, ⟨7, _⟩ => ⟨S1x512, .f32⟩
  | .hbm, ⟨8, _⟩ => ⟨S200000x512, .f32⟩
  | .hbm, ⟨9, _⟩ => ⟨S200000x512, .f32⟩
  | .hbm, ⟨10, _⟩ => ⟨S_, .f32⟩
  | .hbm, ⟨11, _⟩ => ⟨S200000x512, .f32⟩
  | .hbm, ⟨12, _⟩ => ⟨S200000x512, .f32⟩
  | .hbm, ⟨13, _⟩ => ⟨S_, .f32⟩
  | .hbm, ⟨14, _⟩ => ⟨S512, .f32⟩
  | .hbm, ⟨15, _⟩ => ⟨S1x512, .f32⟩
  | _, _ => ⟨S200000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_cst : Ref sig .tc := ⟨.hbm, 10, rfl⟩
abbrev main_call0_v0 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩

abbrev nD : Nat := 1
abbrev τ : Topo := Topo.v7x

variable {F : FTy → Type} [FloatOps F]

class Facts₀ : Prop where
  concatenates_S200000x256_S200000x256_S200000x512_d1 : Shape.Concatenates [S200000x256, S200000x256] S200000x512 1
  transposes_S512x512_S512x512_1_0 : S512x512.Transposes [1, 0] S512x512
  bcast_S512_S1x512_1 : S512.BroadcastsInDim S1x512 (![1] : Fin 1 → Fin S1x512.rank)
  bcast_S1x512_S200000x512_0_1 : S1x512.BroadcastsInDim S200000x512 (![0, 1] : Fin 2 → Fin S200000x512.rank)
  bcast_S_S200000x512 : S_.BroadcastsInDim S200000x512 (![] : Fin 0 → Fin S200000x512.rank)
  reducesTo_S200000x512_S512_d0 : S200000x512.ReducesTo [0] S512
  h_S_ : 0 < S_.numel
  dot_S200000x512_S512x512_S200000x512_1_0_0_1_n_n_wf : DotDims.WF S200000x512 S512x512 S200000x512 [1] [0] [0] [1] [] []

variable [Facts₀]

def dot_S200000x512_S512x512_S200000x512_1_0_0_1_n_n : DotDims S200000x512 S512x512 S200000x512 where
  lhsContracting := [1]
  rhsContracting := [0]
  lhsNonContracting := [0]
  rhsNonContracting := [1]
  lhsBatch := []
  rhsBatch := []
  wf := dot_S200000x512_S512x512_S200000x512_1_0_0_1_n_n_wf

class Facts : Prop extends Facts₀ where

variable [Facts]
-- ==== Proof.KRuns.lean ====
/-
  The kernel body run at one grid point, in each of its four cases.

  The body reads the point's two 2000×256 input blocks, the 512×512 weight block and the 1×512 bias block, forms the
  tile's partial sum `part` (a 1×512 row), and then, by the point's position in the 2×50 grid:
    A  the first point of the first half   : output 0's buffer is reset to zero, then `part` is added to it;
    B  a later point of the first half      : `part` is added to what output 0's buffer holds;
    C  the first point of the second half  : output 1's buffer is reset to zero, then `part` is added to it;
    D  a later point of the second half     : `part` is added to what output 1's buffer holds.
  In every case the other output's buffer is not touched: it is handed back holding what it held.
  Each statement says what every buffer holds afterwards as a function of what it held before: the inputs unchanged,
  the live output at the accumulated row, the idle output as found.
-/
import proofs.«140598_j47545287967106_1_alg».proof.Proof.Gen.Kernel.Frame
import proofs.«140598_j47545287967106_1_alg».proof.Proof.Gen.Kernel.Skeleton
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Every load and store of the body is through the whole-block rectangle at offsets zero. -/
theorem zero_offsets : (![0, 0] : Fin 2 → Nat) = fun _ => 0 := by funext a; fin_cases a <;> rfl

set_option maxHeartbeats 1000000 in
/-- Case A: output 0 reset then accumulated (whatever it held, `xo`, is overwritten); output 1 as found. -/
theorem runA (c : Dev nD) (i : grid0.Coords) (arg2 : Memref sig .tc .vmem S2000x256 .f32) (harg2 : arg2.IsWhole) (arg3 : Memref sig .tc .vmem S2000x256 .f32) (harg3 : arg3.IsWhole) (arg4 : Memref sig .tc .vmem S512x512 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole)
    (hc0 : k0_cond1 i = 1#1) (hc1 : ¬ k0_cond2 i = 1#1) (hc2 : k0_cond3 i = 1#1) (hc3 : ¬ k0_cond4 i = 1#1)
    (x0 : Vec F S2000x256 .f32) (x1 : Vec F S2000x256 .f32) (x2 : Vec F S512x512 .bf16) (x3 : Vec F S1x512 .f32) (xo : Vec F S1x512 .f32) (di : Vec F S1x512 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare di
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay4 x0 x1 x2 x3 (k0_pay2 (F := F))) ∗ owns (c : Thread nD τ) arg7 fullShare di) -∗ K ⟨⟩))
          ⊢ wp frame (wpE (defs₀ (F := F)) Variants.none c none) E (cc0__readout_kernel i arg2 harg2 arg3 harg3 arg4 harg4 arg5 harg5 arg6 harg6 arg7 harg7) K := by
    intro E K
    simp only [cc0__readout_kernel_eq_skeleton]; unfold cc0__readout_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg2.eq_unread hf0; obtain rfl := harg3.eq_unread hf1; obtain rfl := harg4.eq_unread hf2; obtain rfl := harg5.eq_unread hf3
    obtain rfl := harg6.eq_unread hf4
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      sl_unfold_words
      rw [View.read_writes_eq_canon _ _ _ (fun y => ⟨_, List.mem_cons_self, View.mem_set_unit_zero (S := S1x512) zero_offsets inb_S1x512_S1x512_0_0 y⟩),
        View.canon_cons_unit_zero (S := S1x512) zero_offsets]
      simp only [View.readCov_unit_zero (S := S1x512) _ zero_offsets, View.readAt_eq_ld, harg2.read_unread, harg3.read_unread, harg4.read_unread, harg5.read_unread, harg6.read_unread, harg7.read_unread,
        View.ld_unit_zero (S := S2000x256) zero_offsets, View.ld_unit_zero (S := S512x512) zero_offsets, View.ld_unit_zero (S := S1x512) zero_offsets]
    iexists _; isplitr; swap; · iexact H5
    ipureintro; exact hf5

set_option maxHeartbeats 1000000 in
/-- Case B: the tile's partial sum added to what output 0's buffer holds (`xo`); output 1 as found. -/
theorem runB (c : Dev nD) (i : grid0.Coords) (arg2 : Memref sig .tc .vmem S2000x256 .f32) (harg2 : arg2.IsWhole) (arg3 : Memref sig .tc .vmem S2000x256 .f32) (harg3 : arg3.IsWhole) (arg4 : Memref sig .tc .vmem S512x512 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole)
    (hc0 : ¬ k0_cond1 i = 1#1) (hc1 : ¬ k0_cond2 i = 1#1) (hc2 : k0_cond3 i = 1#1) (hc3 : ¬ k0_cond4 i = 1#1)
    (x0 : Vec F S2000x256 .f32) (x1 : Vec F S2000x256 .f32) (x2 : Vec F S512x512 .bf16) (x3 : Vec F S1x512 .f32) (xo : Vec F S1x512 .f32) (di : Vec F S1x512 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare di
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay4 x0 x1 x2 x3 xo) ∗ owns (c : Thread nD τ) arg7 fullShare di) -∗ K ⟨⟩))
          ⊢ wp frame (wpE (defs₀ (F := F)) Variants.none c none) E (cc0__readout_kernel i arg2 harg2 arg3 harg3 arg4 harg4 arg5 harg5 arg6 harg6 arg7 harg7) K := by
    intro E K
    simp only [cc0__readout_kernel_eq_skeleton]; unfold cc0__readout_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg2.eq_unread hf0; obtain rfl := harg3.eq_unread hf1; obtain rfl := harg4.eq_unread hf2; obtain rfl := harg5.eq_unread hf3
    obtain rfl := harg6.eq_unread hf4
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      rw [View.read_writes_eq_canon _ _ _ (fun y => ⟨_, List.mem_singleton_self _, View.mem_set_unit_zero (S := S1x512) zero_offsets inb_S1x512_S1x512_0_0 y⟩),
        View.canon_unit_zero (S := S1x512) zero_offsets]
      simp only [View.readAt_eq_ld, harg2.read_unread, harg3.read_unread, harg4.read_unread, harg5.read_unread, harg6.read_unread, harg7.read_unread,
        View.ld_unit_zero (S := S2000x256) zero_offsets, View.ld_unit_zero (S := S512x512) zero_offsets, View.ld_unit_zero (S := S1x512) zero_offsets]
    iexists _; isplitr; swap; · iexact H5
    ipureintro; exact hf5

set_option maxHeartbeats 1000000 in
/-- Case C: output 1 reset then accumulated (whatever it held, `xo`, is overwritten); output 0 as found. -/
theorem runC (c : Dev nD) (i : grid0.Coords) (arg2 : Memref sig .tc .vmem S2000x256 .f32) (harg2 : arg2.IsWhole) (arg3 : Memref sig .tc .vmem S2000x256 .f32) (harg3 : arg3.IsWhole) (arg4 : Memref sig .tc .vmem S512x512 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole)
    (hc0 : ¬ k0_cond1 i = 1#1) (hc1 : k0_cond2 i = 1#1) (hc2 : ¬ k0_cond3 i = 1#1) (hc3 : k0_cond4 i = 1#1)
    (x0 : Vec F S2000x256 .f32) (x1 : Vec F S2000x256 .f32) (x2 : Vec F S512x512 .bf16) (x3 : Vec F S1x512 .f32) (xo : Vec F S1x512 .f32) (di : Vec F S1x512 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare di ∗ owns (c : Thread nD τ) arg7 fullShare xo
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare di ∗ owns (c : Thread nD τ) arg7 fullShare (k0_pay5 x0 x1 x2 x3 (k0_pay3 (F := F)))) -∗ K ⟨⟩))
          ⊢ wp frame (wpE (defs₀ (F := F)) Variants.none c none) E (cc0__readout_kernel i arg2 harg2 arg3 harg3 arg4 harg4 arg5 harg5 arg6 harg6 arg7 harg7) K := by
    intro E K
    simp only [cc0__readout_kernel_eq_skeleton]; unfold cc0__readout_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg2.eq_unread hf0; obtain rfl := harg3.eq_unread hf1; obtain rfl := harg4.eq_unread hf2; obtain rfl := harg5.eq_unread hf3
    obtain rfl := harg7.eq_unread hf5
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro; exact hf4
    iexists _; isplitr; swap; · iexact H5
    ipureintro
    sl_unfold_words
    rw [View.read_writes_eq_canon _ _ _ (fun y => ⟨_, List.mem_cons_self, View.mem_set_unit_zero (S := S1x512) zero_offsets inb_S1x512_S1x512_0_0 y⟩),
      View.canon_cons_unit_zero (S := S1x512) zero_offsets]
    simp only [View.readCov_unit_zero (S := S1x512) _ zero_offsets, View.readAt_eq_ld, harg2.read_unread, harg3.read_unread, harg4.read_unread, harg5.read_unread, harg6.read_unread, harg7.read_unread,
      View.ld_unit_zero (S := S2000x256) zero_offsets, View.ld_unit_zero (S := S512x512) zero_offsets, View.ld_unit_zero (S := S1x512) zero_offsets]

set_option maxHeartbeats 1000000 in
/-- Case D: the tile's partial sum added to what output 1's buffer holds (`xo`); output 0 as found. -/
theorem runD (c : Dev nD) (i : grid0.Coords) (arg2 : Memref sig .tc .vmem S2000x256 .f32) (harg2 : arg2.IsWhole) (arg3 : Memref sig .tc .vmem S2000x256 .f32) (harg3 : arg3.IsWhole) (arg4 : Memref sig .tc .vmem S512x512 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole)
    (hc0 : ¬ k0_cond1 i = 1#1) (hc1 : ¬ k0_cond2 i = 1#1) (hc2 : ¬ k0_cond3 i = 1#1) (hc3 : k0_cond4 i = 1#1)
    (x0 : Vec F S2000x256 .f32) (x1 : Vec F S2000x256 .f32) (x2 : Vec F S512x512 .bf16) (x3 : Vec F S1x512 .f32) (xo : Vec F S1x512 .f32) (di : Vec F S1x512 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare di ∗ owns (c : Thread nD τ) arg7 fullShare xo
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare di ∗ owns (c : Thread nD τ) arg7 fullShare (k0_pay5 x0 x1 x2 x3 xo)) -∗ K ⟨⟩))
          ⊢ wp frame (wpE (defs₀ (F := F)) Variants.none c none) E (cc0__readout_kernel i arg2 harg2 arg3 harg3 arg4 harg4 arg5 harg5 arg6 harg6 arg7 harg7) K := by
    intro E K
    simp only [cc0__readout_kernel_eq_skeleton]; unfold cc0__readout_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg2.eq_unread hf0; obtain rfl := harg3.eq_unread hf1; obtain rfl := harg4.eq_unread hf2; obtain rfl := harg5.eq_unread hf3
    obtain rfl := harg7.eq_unread hf5
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro; exact hf4
    iexists _; isplitr; swap; · iexact H5
    ipureintro
    rw [View.read_writes_eq_canon _ _ _ (fun y => ⟨_, List.mem_singleton_self _, View.mem_set_unit_zero (S := S1x512) zero_offsets inb_S1x512_S1x512_0_0 y⟩),
      View.canon_unit_zero (S := S1x512) zero_offsets]
    simp only [View.readAt_eq_ld, harg2.read_unread, harg3.read_unread, harg4.read_unread, harg5.read_unread, harg6.read_unread, harg7.read_unread,
      View.ld_unit_zero (S := S2000x256) zero_offsets, View.ld_unit_zero (S := S512x512) zero_offsets, View.ld_unit_zero (S := S1x512) zero_offsets]

end Cert.Kernel.Body

end
-- ==== Proof.LibIdleCarry.lean ====
/-
  What an OUTPUT window's staging buffer holds when the body runs at a point after the first, read off the point
  before it, for a window that is idle at SOME points only (stored under conditions on the grid point).

  The pipeline's proof data say what the buffer holds "before" point `t` by looking one point back: if the point
  before wrote the block back the buffer is fresh; if the body stored into it there, it holds what the body left
  (all of it, for a block that is not cut at the array's edge); and if the window was idle there, it holds what
  the body FOUND there — so through a run of idle points the buffer keeps what the last live point left.
  The library states the middle case for a window that is live at every point; here both are stated pointwise.
-/
import Idealize.ShloMosaic.Lib.Pipeline.Frame

noncomputable section

namespace Idealize.ShloMosaic.Pipeline

open Idealize.SL Idealize.SL.RA

variable {nD : Nat} {τ : Topo} {sig : RefSig} {Val : EltTy → Type}
variable {Ix : Type} [DecidableEq Ix] {Name : Type} [DecidableEq Name] {U : Type} [URA U] {Lvl : Type}
variable {Λ₀ : SL.Sem.Labels} {cfg : Cfg sig Λ₀} {c : Dev nD} (dat : Dat τ Val Ix Name U Lvl cfg c)

/-- The point before `t`. -/
abbrev Dat.prevPt (t : Fin cfg.N) : Fin cfg.N := ⟨t.val - 1, Nat.lt_of_le_of_lt (Nat.sub_le _ _) t.isLt⟩

/-- After a LIVE point that did not write the block back, an output's buffer holds what the body left there. -/
theorem Dat.before_out_after_live (w : Fin cfg.W) (hw : (cfg.win w).isOut = true) (t : Fin cfg.N) (ht : t.val ≠ 0)
    (hfl : (cfg.win w).flush (Dat.prevPt t) = false)
    (hlive : cfg.idle w (cfg.grid.coords (Dat.prevPt t)) = false)
    (hclip : ∀ a, (cfg.win w).clip (cfg.grid.coords (Dat.prevPt t)) a = none) (d) :
    dat.before w t d = dat.after w (Dat.prevPt t) := by
  rw [dat.before_of_pos w t ht ((cfg.win w).fetch_out hw t)]
  show (if (cfg.win w).flush (Dat.prevPt t) then d else dat.left w (Dat.prevPt t) d) = _
  rw [hfl, if_neg Bool.false_ne_true]
  unfold Dat.left; rw [hlive]
  show dat.kept w (Dat.prevPt t) d = _
  unfold Dat.kept
  rw [fill_of_clip_none w _ hclip d (dat.after w _), Window.fill_cut]

/-- After an IDLE point that did not write the block back, an output's buffer holds what it held before that point. -/
theorem Dat.before_out_after_idle (w : Fin cfg.W) (hw : (cfg.win w).isOut = true) (t : Fin cfg.N) (ht : t.val ≠ 0)
    (hfl : (cfg.win w).flush (Dat.prevPt t) = false)
    (hidle : cfg.idle w (cfg.grid.coords (Dat.prevPt t)) = true) (d) :
    dat.before w t d = dat.before w (Dat.prevPt t) d := by
  rw [dat.before_of_pos w t ht ((cfg.win w).fetch_out hw t)]
  show (if (cfg.win w).flush (Dat.prevPt t) then d else dat.left w (Dat.prevPt t) d) = _
  rw [hfl, if_neg Bool.false_ne_true]
  unfold Dat.left; rw [hidle]

end Idealize.ShloMosaic.Pipeline

end
-- ==== Proof.KData.lean ====
/-
  The pipeline's proof data for the one region, its body obligation, the run and the frame.

  Output 0's buffer is live on the first half of the grid (points 0..49) and idle on the second; output 1's is idle on
  the first half and live on the second (points 50..99); both blocks are written back once, after the last point.
  So after point `n`:
    output 0 holds `acc0 n` — at point 0 zero plus the tile's partial sum, at a point 1..49 what the point before left
      plus the tile's partial sum, and from point 50 on what point 49 left, carried unchanged through the idle points
      up to the write-back;
    output 1 holds `acc1 n` — from point 50 on the same accumulation over the second half's tiles (before point 50 its
      buffer is never read: the reset at point 50 overwrites it, so the value named there is immaterial).
-/
import proofs.«140598_j47545287967106_1_alg».proof.Proof.KRuns
import proofs.«140598_j47545287967106_1_alg».proof.Proof.LibIdleCarry

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid in closed form: the body's four conditions, and where the two outputs are idle -/

/-- "first half and first tile": at point 0 only. -/
theorem hcond1 : ∀ t : Fin cfg0.N, k0_cond1 (grid0.coords t) = 1#1 ↔ t.val = 0 :=
  (by decide +kernel : ∀ t : Fin grid0.N, k0_cond1 (grid0.coords t) = 1#1 ↔ t.val = 0)
/-- "second half and first tile": at point 50 only. -/
theorem hcond2 : ∀ t : Fin cfg0.N, k0_cond2 (grid0.coords t) = 1#1 ↔ t.val = 50 :=
  (by decide +kernel : ∀ t : Fin grid0.N, k0_cond2 (grid0.coords t) = 1#1 ↔ t.val = 50)
/-- "first half": points 0..49. -/
theorem hcond3 : ∀ t : Fin cfg0.N, k0_cond3 (grid0.coords t) = 1#1 ↔ t.val < 50 :=
  (by decide +kernel : ∀ t : Fin grid0.N, k0_cond3 (grid0.coords t) = 1#1 ↔ t.val < 50)
/-- "second half": points 50..99. -/
theorem hcond4 : ∀ t : Fin cfg0.N, k0_cond4 (grid0.coords t) = 1#1 ↔ 50 ≤ t.val :=
  (by decide +kernel : ∀ t : Fin grid0.N, k0_cond4 (grid0.coords t) = 1#1 ↔ 50 ≤ t.val)

/-- Output 0 is idle exactly on the second half. -/
theorem idle4 : ∀ t : Fin cfg0.N, cfg0.idle 4 (grid0.coords t) = true ↔ 50 ≤ t.val :=
  (by decide +kernel : ∀ t : Fin grid0.N, cfg0.idle 4 (grid0.coords t) = true ↔ 50 ≤ t.val)
/-- Output 1 is idle exactly on the first half. -/
theorem idle5 : ∀ t : Fin cfg0.N, cfg0.idle 5 (grid0.coords t) = true ↔ t.val < 50 :=
  (by decide +kernel : ∀ t : Fin grid0.N, cfg0.idle 5 (grid0.coords t) = true ↔ t.val < 50)
/-- The inputs are never idle. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel

theorem lt_N {n : ℕ} (h : n < 100) : n < cfg0.N := lt_of_lt_of_eq h N_0.symm
theorem val_lt (t : Fin cfg0.N) : t.val < 100 := lt_of_lt_of_eq t.isLt (show cfg0.N = 100 from N_0)

/-! ## The staging memrefs the pipeline hands the body at a point -/

abbrev stg0 (t : Fin cfg0.N) : Memref sig .tc .vmem S2000x256 .f32 := win0_0.stage (cfg0.slots t 0)
abbrev whole0 (t : Fin cfg0.N) : (stg0 t).IsWhole := hstage0_0 ((cfg0.slots t 0).cast nbuf0_0)
abbrev stg1 (t : Fin cfg0.N) : Memref sig .tc .vmem S2000x256 .f32 := win0_1.stage (cfg0.slots t 1)
abbrev whole1 (t : Fin cfg0.N) : (stg1 t).IsWhole := hstage0_1 ((cfg0.slots t 1).cast nbuf0_1)
abbrev stg2 (t : Fin cfg0.N) : Memref sig .tc .vmem S512x512 .bf16 := win0_2.stage (cfg0.slots t 2)
abbrev whole2 (t : Fin cfg0.N) : (stg2 t).IsWhole := hstage0_2 ((cfg0.slots t 2).cast nbuf0_2)
abbrev stg3 (t : Fin cfg0.N) : Memref sig .tc .vmem S1x512 .f32 := win0_3.stage (cfg0.slots t 3)
abbrev whole3 (t : Fin cfg0.N) : (stg3 t).IsWhole := hstage0_3 ((cfg0.slots t 3).cast nbuf0_3)
abbrev stg4 (t : Fin cfg0.N) : Memref sig .tc .vmem S1x512 .f32 := win0_4.stage (cfg0.slots t 4)
abbrev whole4 (t : Fin cfg0.N) : (stg4 t).IsWhole := hstage0_4 ((cfg0.slots t 4).cast nbuf0_4)
abbrev stg5 (t : Fin cfg0.N) : Memref sig .tc .vmem S1x512 .f32 := win0_5.stage (cfg0.slots t 5)
abbrev whole5 (t : Fin cfg0.N) : (stg5 t).IsWhole := hstage0_5 ((cfg0.slots t 5).cast nbuf0_5)

/-! ## What the two outputs' buffers hold after each point -/

/-- Output 0's buffer after point `n`. -/
def acc0 (c : Dev nD) : (n : ℕ) → n < cfg0.N → Vec F S1x512 .f32
  | 0, hn => k0_pay4 (iblk m c 0 ⟨0, hn⟩) (iblk m c 1 ⟨0, hn⟩) (iblk m c 2 ⟨0, hn⟩) (iblk m c 3 ⟨0, hn⟩) (k0_pay2 (F := F))
  | n + 1, hn =>
    if n + 1 < 50 then
      k0_pay4 (iblk m c 0 ⟨n + 1, hn⟩) (iblk m c 1 ⟨n + 1, hn⟩) (iblk m c 2 ⟨n + 1, hn⟩) (iblk m c 3 ⟨n + 1, hn⟩) (acc0 c n (Nat.lt_of_succ_lt hn))
    else acc0 c n (Nat.lt_of_succ_lt hn)

/-- Output 1's buffer after point `n` (named zero before point 50, where nothing reads it). -/
def acc1 (c : Dev nD) : (n : ℕ) → n < cfg0.N → Vec F S1x512 .f32
  | 0, _ => k0_pay3 (F := F)
  | n + 1, hn =>
    if n + 1 < 50 then k0_pay3 (F := F)
    else if n + 1 = 50 then
      k0_pay5 (iblk m c 0 ⟨n + 1, hn⟩) (iblk m c 1 ⟨n + 1, hn⟩) (iblk m c 2 ⟨n + 1, hn⟩) (iblk m c 3 ⟨n + 1, hn⟩) (k0_pay3 (F := F))
    else
      k0_pay5 (iblk m c 0 ⟨n + 1, hn⟩) (iblk m c 1 ⟨n + 1, hn⟩) (iblk m c 2 ⟨n + 1, hn⟩) (iblk m c 3 ⟨n + 1, hn⟩) (acc1 c n (Nat.lt_of_succ_lt hn))

theorem pred_lt (t : Fin cfg0.N) : t.val - 1 < cfg0.N := Nat.lt_of_le_of_lt (Nat.sub_le _ _) t.isLt

theorem acc0_first (c : Dev nD) (t : Fin cfg0.N) (h : t.val = 0) :
    acc0 m c t.val t.isLt = k0_pay4 (iblk m c 0 t) (iblk m c 1 t) (iblk m c 2 t) (iblk m c 3 t) (k0_pay2 (F := F)) := by
  obtain ⟨n, hn⟩ := t
  cases n with
  | zero => rfl
  | succ n => exact absurd h (Nat.succ_ne_zero n)

theorem acc0_lo (c : Dev nD) (t : Fin cfg0.N) (h0 : t.val ≠ 0) (h : t.val < 50) :
    acc0 m c t.val t.isLt = k0_pay4 (iblk m c 0 t) (iblk m c 1 t) (iblk m c 2 t) (iblk m c 3 t) (acc0 m c (t.val - 1) (pred_lt t)) := by
  obtain ⟨n, hn⟩ := t
  cases n with
  | zero => exact absurd rfl h0
  | succ n => exact (if_pos h).trans rfl

theorem acc0_hi (c : Dev nD) (t : Fin cfg0.N) (h : 50 ≤ t.val) :
    acc0 m c t.val t.isLt = acc0 m c (t.val - 1) (pred_lt t) := by
  obtain ⟨n, hn⟩ := t
  cases n with
  | zero => exact absurd h (by decide : ¬ (50 : ℕ) ≤ 0)
  | succ n => exact (if_neg (Nat.not_lt.mpr h)).trans rfl

/-- From point 49 on output 0's buffer no longer changes. -/
theorem acc0_from49 (c : Dev nD) : ∀ (n : ℕ) (hn : 49 + n < cfg0.N), acc0 m c (49 + n) hn = acc0 m c 49 (lt_N (by decide))
  | 0, _ => rfl
  | n + 1, hn => (acc0_hi m c ⟨49 + (n + 1), hn⟩ (by show 50 ≤ 49 + (n + 1); omega)).trans (acc0_from49 c n (Nat.lt_of_succ_lt hn))

theorem acc0_ge49 (c : Dev nD) (t : Fin cfg0.N) (h : 49 ≤ t.val) : acc0 m c t.val t.isLt = acc0 m c 49 (lt_N (by decide)) := by
  obtain ⟨n, hn⟩ := t
  obtain ⟨k, rfl⟩ : ∃ k, n = 49 + k := ⟨n - 49, by have : 49 ≤ n := h; omega⟩
  exact acc0_from49 m c k hn

theorem acc1_first (c : Dev nD) (t : Fin cfg0.N) (h : t.val = 50) :
    acc1 m c t.val t.isLt = k0_pay5 (iblk m c 0 t) (iblk m c 1 t) (iblk m c 2 t) (iblk m c 3 t) (k0_pay3 (F := F)) := by
  obtain ⟨n, hn⟩ := t
  cases n with
  | zero => exact absurd h (by decide : ¬ (0 : ℕ) = 50)
  | succ n => exact (if_neg (by have : n + 1 = 50 := h; omega)).trans ((if_pos h).trans rfl)

theorem acc1_hi (c : Dev nD) (t : Fin cfg0.N) (h : 50 < t.val) :
    acc1 m c t.val t.isLt = k0_pay5 (iblk m c 0 t) (iblk m c 1 t) (iblk m c 2 t) (iblk m c 3 t) (acc1 m c (t.val - 1) (pred_lt t)) := by
  obtain ⟨n, hn⟩ := t
  cases n with
  | zero => exact absurd h (by decide : ¬ (50 : ℕ) < 0)
  | succ n => exact (if_neg (by have : 50 < n + 1 := h; omega)).trans ((if_neg (by have : 50 < n + 1 := h; omega)).trans rfl)

/-! ## The proof data -/

/-- The arrays as the region finds them; after the body at point `t` each input's buffer at its block, output 0's at
    `acc0 t`, output 1's at `acc1 t`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => acc0 m c t.val t.isLt
    | ⟨5, _⟩ => acc1 m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = acc0 m c t.val t.isLt := by dsimp only [dats]
theorem after_5 (c : Dev nD) (t : Fin cfg0.N) : (dats m 0 c).after 5 t = acc1 m c t.val t.isLt := by dsimp only [dats]

/-- Each input's current buffer holds its block at every point. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- Neither output is written back before the last point. -/
theorem noflush4 (t : Fin cfg0.N) (h : t.val ≠ 99) : (cfg0.win 4).flush t = false :=
  Bool.eq_false_iff.mpr fun h' => by have := (flush0_4 t).mp h'; have := val_lt t; omega
theorem noflush5 (t : Fin cfg0.N) (h : t.val ≠ 99) : (cfg0.win 5).flush t = false :=
  Bool.eq_false_iff.mpr fun h' => by have := (flush0_5 t).mp h'; have := val_lt t; omega

/-- At a point 1..49 output 0's buffer holds what the point before left. -/
theorem before4_lo (c : Dev nD) (t : Fin cfg0.N) (h0 : t.val ≠ 0) (h : t.val < 50) (d) :
    (dats m 0 c).before 4 t d = acc0 m c (t.val - 1) (pred_lt t) := by
  rw [Pipeline.Dat.before_out_after_live _ 4 rfl t h0
    (noflush4 _ (by show t.val - 1 ≠ 99; omega))
    (Bool.eq_false_iff.mpr fun h' => by have := (idle4 _).mp h'; have : 50 ≤ t.val - 1 := this; omega)
    (fun _ => rfl)]
  dsimp only [dats]

/-- From point 50 on output 0's buffer holds what point 49 left: it is carried through the idle points. -/
theorem before4_from50 (c : Dev nD) (d) : ∀ (n : ℕ) (hn : 50 + n < cfg0.N),
    (dats m 0 c).before 4 ⟨50 + n, hn⟩ d = acc0 m c 49 (lt_N (by decide))
  | 0, hn => by
    rw [Pipeline.Dat.before_out_after_live _ 4 rfl ⟨50 + 0, hn⟩ (by decide : (50 + 0 : ℕ) ≠ 0)
      (noflush4 _ (by decide : (50 + 0 - 1 : ℕ) ≠ 99))
      (Bool.eq_false_iff.mpr fun h' => by have := (idle4 _).mp h'; have : 50 ≤ 50 + 0 - 1 := this; omega)
      (fun _ => rfl)]
    dsimp only [dats]
  | n + 1, hn => by
    have hlt : 50 + (n + 1) < 100 := lt_of_lt_of_eq hn N_0
    rw [Pipeline.Dat.before_out_after_idle _ 4 rfl ⟨50 + (n + 1), hn⟩ (by show 50 + (n + 1) ≠ 0; omega)
      (noflush4 _ (by show 50 + (n + 1) - 1 ≠ 99; omega))
      ((idle4 _).mpr (by show 50 ≤ 50 + (n + 1) - 1; omega))]
    exact before4_from50 c d n (Nat.lt_of_succ_lt hn)

theorem before4_hi (c : Dev nD) (t : Fin cfg0.N) (h : 50 ≤ t.val) (d) :
    (dats m 0 c).before 4 t d = acc0 m c 49 (lt_N (by decide)) := by
  obtain ⟨n, hn⟩ := t
  obtain ⟨k, rfl⟩ : ∃ k, n = 50 + k := ⟨n - 50, by have : 50 ≤ n := h; omega⟩
  exact before4_from50 m c d k hn

/-- At a point 51..99 output 1's buffer holds what the point before left. -/
theorem before5_hi (c : Dev nD) (t : Fin cfg0.N) (h : 50 < t.val) (d) :
    (dats m 0 c).before 5 t d = acc1 m c (t.val - 1) (pred_lt t) := by
  have := val_lt t
  rw [Pipeline.Dat.before_out_after_live _ 5 rfl t (by omega)
    (noflush5 _ (by show t.val - 1 ≠ 99; omega))
    (Bool.eq_false_iff.mpr fun h' => by have := (idle5 _).mp h'; have : t.val - 1 < 50 := this; omega)
    (fun _ => rfl)]
  dsimp only [dats]

end Cert.Kernel.Body

end
-- ==== Proof.KFrame.lean ====
/-
  The body obligation at every grid point, the run of the whole program and its frame.

  At a point the pipeline hands the body each window's current buffer: the inputs at their blocks, each output at what
  it holds by the bookkeeping of the points before. The point's position selects the case of the body's run; a live
  output is left at the next value of its accumulator, an idle one as found — and at the last point, where output 0 is
  idle but written back, "as found" is what point 49 left, which is the value the proof data name there.
-/
import proofs.«140598_j47545287967106_1_alg».proof.Proof.KData

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

/-- An input is never idle: its buffer is left at its block. -/
theorem leaves_in0 (c : Dev nD) (t : Fin cfg0.N) : (dats m 0 c).leavesExact 0 t = owns (c : Thread nD τ) (stg0 t) fullShare (iblk m c 0 t) := by
  rw [show (dats m 0 c).leavesExact 0 t = owns (c : Thread nD τ) (stg0 t) fullShare ((dats m 0 c).after 0 t) from by
    unfold Dat.leavesExact; rw [live0 t], after_0]
theorem leaves_in1 (c : Dev nD) (t : Fin cfg0.N) : (dats m 0 c).leavesExact 1 t = owns (c : Thread nD τ) (stg1 t) fullShare (iblk m c 1 t) := by
  rw [show (dats m 0 c).leavesExact 1 t = owns (c : Thread nD τ) (stg1 t) fullShare ((dats m 0 c).after 1 t) from by
    unfold Dat.leavesExact; rw [live1 t], after_1]
theorem leaves_in2 (c : Dev nD) (t : Fin cfg0.N) : (dats m 0 c).leavesExact 2 t = owns (c : Thread nD τ) (stg2 t) fullShare (iblk m c 2 t) := by
  rw [show (dats m 0 c).leavesExact 2 t = owns (c : Thread nD τ) (stg2 t) fullShare ((dats m 0 c).after 2 t) from by
    unfold Dat.leavesExact; rw [live2 t], after_2]
theorem leaves_in3 (c : Dev nD) (t : Fin cfg0.N) : (dats m 0 c).leavesExact 3 t = owns (c : Thread nD τ) (stg3 t) fullShare (iblk m c 3 t) := by
  rw [show (dats m 0 c).leavesExact 3 t = owns (c : Thread nD τ) (stg3 t) fullShare ((dats m 0 c).after 3 t) from by
    unfold Dat.leavesExact; rw [live3 t], after_3]

/-- Output 0 is live on the first half, output 1 on the second. -/
theorem live4 (t : Fin cfg0.N) (h : t.val < 50) : cfg0.idle 4 (grid0.coords t) = false :=
  Bool.eq_false_iff.mpr fun h' => by have := (idle4 t).mp h'; omega
theorem live5 (t : Fin cfg0.N) (h : 50 ≤ t.val) : cfg0.idle 5 (grid0.coords t) = false :=
  Bool.eq_false_iff.mpr fun h' => by have := (idle5 t).mp h'; omega

/-- Output 0 on the first half: left at its accumulator. -/
theorem leaves4_live (c : Dev nD) (t : Fin cfg0.N) (h : t.val < 50) :
    (dats m 0 c).leavesExact 4 t = owns (c : Thread nD τ) (stg4 t) fullShare (acc0 m c t.val t.isLt) := by
  rw [show (dats m 0 c).leavesExact 4 t = owns (c : Thread nD τ) (stg4 t) fullShare ((dats m 0 c).after 4 t) from by
    unfold Dat.leavesExact; rw [live4 t h], after_4]
/-- Output 0 at the last point, idle but written back: left at what the proof data name. -/
theorem leaves4_last (c : Dev nD) (t : Fin cfg0.N) (h : t.val = 99) :
    (dats m 0 c).leavesExact 4 t = owns (c : Thread nD τ) (stg4 t) fullShare (acc0 m c t.val t.isLt) := by
  rw [show (dats m 0 c).leavesExact 4 t = owns (c : Thread nD τ) (stg4 t) fullShare ((dats m 0 c).after 4 t) from by
    unfold Dat.leavesExact; rw [(idle4 t).mpr (by omega), (flush0_4 t).mpr (by omega)], after_4]
/-- Output 1 on the second half: left at its accumulator. -/
theorem leaves5_live (c : Dev nD) (t : Fin cfg0.N) (h : 50 ≤ t.val) :
    (dats m 0 c).leavesExact 5 t = owns (c : Thread nD τ) (stg5 t) fullShare (acc1 m c t.val t.isLt) := by
  rw [show (dats m 0 c).leavesExact 5 t = owns (c : Thread nD τ) (stg5 t) fullShare ((dats m 0 c).after 5 t) from by
    unfold Dat.leavesExact; rw [live5 t h], after_5]

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    leaves_in0, leaves_in1, leaves_in2, leaves_in3]
  have hN := val_lt t
  by_cases hA : t.val = 0
  · -- the first point of the first half
    rw [leaves4_live m c t (by omega), acc0_first m c t hA,
      Dat.leavesExact_idle _ 5 t ((idle5 t).mpr (by omega)) (noflush5 t (by omega))]
    iintro ⟨HΦ, Ho, ⟨%d0, H0⟩, ⟨%d1, H1⟩, ⟨%d2, H2⟩, ⟨%d3, H3⟩, ⟨%d4, H4⟩, ⟨%d5, H5⟩⟩
    iapply (runA c (grid0.coords t) _ _ _ _ _ _ _ _ _ _ _ _ ((hcond1 t).mpr hA) (fun h => by have := (hcond2 t).mp h; omega)
      ((hcond3 t).mpr (by omega)) (fun h => by have := (hcond4 t).mp h; omega)
      (iblk m c 0 t) (iblk m c 1 t) (iblk m c 2 t) (iblk m c 3 t) ((dats m 0 c).before 4 t d4) ((dats m 0 c).before 5 t d5) Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexists d5; iexact H5
  by_cases hB : t.val < 50
  · -- a later point of the first half
    rw [leaves4_live m c t hB, acc0_lo m c t hA hB,
      Dat.leavesExact_idle _ 5 t ((idle5 t).mpr hB) (noflush5 t (by omega))]
    simp only [before4_lo m c t hA hB]
    iintro ⟨HΦ, Ho, ⟨%d0, H0⟩, ⟨%d1, H1⟩, ⟨%d2, H2⟩, ⟨%d3, H3⟩, ⟨%d4, H4⟩, ⟨%d5, H5⟩⟩
    iapply (runB c (grid0.coords t) _ _ _ _ _ _ _ _ _ _ _ _ (fun h => by have := (hcond1 t).mp h; omega) (fun h => by have := (hcond2 t).mp h; omega)
      ((hcond3 t).mpr hB) (fun h => by have := (hcond4 t).mp h; omega)
      (iblk m c 0 t) (iblk m c 1 t) (iblk m c 2 t) (iblk m c 3 t) (acc0 m c (t.val - 1) (pred_lt t)) ((dats m 0 c).before 5 t d5) Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexists d5; iexact H5
  by_cases hC : t.val = 50
  · -- the first point of the second half
    rw [Dat.leavesExact_idle _ 4 t ((idle4 t).mpr (by omega)) (noflush4 t (by omega)),
      leaves5_live m c t (by omega), acc1_first m c t hC]
    iintro ⟨HΦ, Ho, ⟨%d0, H0⟩, ⟨%d1, H1⟩, ⟨%d2, H2⟩, ⟨%d3, H3⟩, ⟨%d4, H4⟩, ⟨%d5, H5⟩⟩
    iapply (runC c (grid0.coords t) _ _ _ _ _ _ _ _ _ _ _ _ (fun h => by have := (hcond1 t).mp h; omega) ((hcond2 t).mpr hC)
      (fun h => by have := (hcond3 t).mp h; omega) ((hcond4 t).mpr (by omega))
      (iblk m c 0 t) (iblk m c 1 t) (iblk m c 2 t) (iblk m c 3 t) ((dats m 0 c).before 5 t d5) ((dats m 0 c).before 4 t d4) Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexists d4; iexact H4
    iexact H5
  by_cases hL : t.val = 99
  · -- the last point: output 0, idle, is written back at what point 49 left
    rw [leaves4_last m c t hL, acc0_ge49 m c t (by omega),
      leaves5_live m c t (by omega), acc1_hi m c t (by omega)]
    simp only [before4_hi m c t (by omega), before5_hi m c t (by omega)]
    iintro ⟨HΦ, Ho, ⟨%d0, H0⟩, ⟨%d1, H1⟩, ⟨%d2, H2⟩, ⟨%d3, H3⟩, ⟨%d4, H4⟩, ⟨%d5, H5⟩⟩
    iapply (runD c (grid0.coords t) _ _ _ _ _ _ _ _ _ _ _ _ (fun h => by have := (hcond1 t).mp h; omega) (fun h => by have := (hcond2 t).mp h; omega)
      (fun h => by have := (hcond3 t).mp h; omega) ((hcond4 t).mpr (by omega))
      (iblk m c 0 t) (iblk m c 1 t) (iblk m c 2 t) (iblk m c 3 t) (acc1 m c (t.val - 1) (pred_lt t)) (acc0 m c 49 (lt_N (by decide))) Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · -- a later point of the second half
    rw [Dat.leavesExact_idle _ 4 t ((idle4 t).mpr (by omega)) (noflush4 t hL),
      leaves5_live m c t (by omega), acc1_hi m c t (by omega)]
    simp only [before5_hi m c t (by omega)]
    iintro ⟨HΦ, Ho, ⟨%d0, H0⟩, ⟨%d1, H1⟩, ⟨%d2, H2⟩, ⟨%d3, H3⟩, ⟨%d4, H4⟩, ⟨%d5, H5⟩⟩
    iapply (runD c (grid0.coords t) _ _ _ _ _ _ _ _ _ _ _ _ (fun h => by have := (hcond1 t).mp h; omega) (fun h => by have := (hcond2 t).mp h; omega)
      (fun h => by have := (hcond3 t).mp h; omega) ((hcond4 t).mpr (by omega))
      (iblk m c 0 t) (iblk m c 1 t) (iblk m c 2 t) (iblk m c 3 t) (acc1 m c (t.val - 1) (pred_lt t)) ((dats m 0 c).before 4 t d4) Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexists d4; iexact H4
    iexact H5

/-- The library's body obligation, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of the program terminates, every array of the pipeline ends at what the proof data
    compute (the inputs as found, output 0 at `acc0`'s last value, output 1 at `acc1`'s), and every other buffer at what
    the closing host addition leaves. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs and its four argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Body

end
-- ==== Proof.KIRuns.lean ====
/-
  The kernel body run at one grid point, in each of its four cases.

  The body reads the point's two 2000×256 input blocks, the 512×512 weight block and the 1×512 bias block, forms the
  tile's partial sum `part` (a 1×512 row), and then, by the point's position in the 2×50 grid:
    A  the first point of the first half   : output 0's buffer is reset to zero, then `part` is added to it;
    B  a later point of the first half      : `part` is added to what output 0's buffer holds;
    C  the first point of the second half  : output 1's buffer is reset to zero, then `part` is added to it;
    D  a later point of the second half     : `part` is added to what output 1's buffer holds.
  In every case the other output's buffer is not touched: it is handed back holding what it held.
  Each statement says what every buffer holds afterwards as a function of what it held before: the inputs unchanged,
  the live output at the accumulated row, the idle output as found.
-/
import proofs.«140598_j47545287967106_1_alg».proof.Proof.Gen.KernelIdeal.Frame
import proofs.«140598_j47545287967106_1_alg».proof.Proof.Gen.KernelIdeal.Skeleton
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Every load and store of the body is through the whole-block rectangle at offsets zero. -/
theorem zero_offsets : (![0, 0] : Fin 2 → Nat) = fun _ => 0 := by funext a; fin_cases a <;> rfl

set_option maxHeartbeats 1000000 in
/-- Case A: output 0 reset then accumulated (whatever it held, `xo`, is overwritten); output 1 as found. -/
theorem runA (c : Dev nD) (i : grid0.Coords) (arg2 : Memref sig .tc .vmem S2000x256 .f32) (harg2 : arg2.IsWhole) (arg3 : Memref sig .tc .vmem S2000x256 .f32) (harg3 : arg3.IsWhole) (arg4 : Memref sig .tc .vmem S512x512 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole)
    (hc0 : k0_cond1 i = 1#1) (hc1 : ¬ k0_cond2 i = 1#1) (hc2 : k0_cond3 i = 1#1) (hc3 : ¬ k0_cond4 i = 1#1)
    (x0 : Vec F S2000x256 .f32) (x1 : Vec F S2000x256 .f32) (x2 : Vec F S512x512 .bf16) (x3 : Vec F S1x512 .f32) (xo : Vec F S1x512 .f32) (di : Vec F S1x512 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare di
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay4 x0 x1 x2 x3 (k0_pay2 (F := F))) ∗ owns (c : Thread nD τ) arg7 fullShare di) -∗ K ⟨⟩))
          ⊢ wp frame (wpE (defs₀ (F := F)) Variants.none c none) E (cc0__readout_kernel i arg2 harg2 arg3 harg3 arg4 harg4 arg5 harg5 arg6 harg6 arg7 harg7) K := by
    intro E K
    simp only [cc0__readout_kernel_eq_skeleton]; unfold cc0__readout_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg2.eq_unread hf0; obtain rfl := harg3.eq_unread hf1; obtain rfl := harg4.eq_unread hf2; obtain rfl := harg5.eq_unread hf3
    obtain rfl := harg6.eq_unread hf4
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      sl_unfold_words
      rw [View.read_writes_eq_canon _ _ _ (fun y => ⟨_, List.mem_cons_self, View.mem_set_unit_zero (S := S1x512) zero_offsets inb_S1x512_S1x512_0_0 y⟩),
        View.canon_cons_unit_zero (S := S1x512) zero_offsets]
      simp only [View.readCov_unit_zero (S := S1x512) _ zero_offsets, View.readAt_eq_ld, harg2.read_unread, harg3.read_unread, harg4.read_unread, harg5.read_unread, harg6.read_unread, harg7.read_unread,
        View.ld_unit_zero (S := S2000x256) zero_offsets, View.ld_unit_zero (S := S512x512) zero_offsets, View.ld_unit_zero (S := S1x512) zero_offsets]
    iexists _; isplitr; swap; · iexact H5
    ipureintro; exact hf5

set_option maxHeartbeats 1000000 in
/-- Case B: the tile's partial sum added to what output 0's buffer holds (`xo`); output 1 as found. -/
theorem runB (c : Dev nD) (i : grid0.Coords) (arg2 : Memref sig .tc .vmem S2000x256 .f32) (harg2 : arg2.IsWhole) (arg3 : Memref sig .tc .vmem S2000x256 .f32) (harg3 : arg3.IsWhole) (arg4 : Memref sig .tc .vmem S512x512 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole)
    (hc0 : ¬ k0_cond1 i = 1#1) (hc1 : ¬ k0_cond2 i = 1#1) (hc2 : k0_cond3 i = 1#1) (hc3 : ¬ k0_cond4 i = 1#1)
    (x0 : Vec F S2000x256 .f32) (x1 : Vec F S2000x256 .f32) (x2 : Vec F S512x512 .bf16) (x3 : Vec F S1x512 .f32) (xo : Vec F S1x512 .f32) (di : Vec F S1x512 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare di
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay4 x0 x1 x2 x3 xo) ∗ owns (c : Thread nD τ) arg7 fullShare di) -∗ K ⟨⟩))
          ⊢ wp frame (wpE (defs₀ (F := F)) Variants.none c none) E (cc0__readout_kernel i arg2 harg2 arg3 harg3 arg4 harg4 arg5 harg5 arg6 harg6 arg7 harg7) K := by
    intro E K
    simp only [cc0__readout_kernel_eq_skeleton]; unfold cc0__readout_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg2.eq_unread hf0; obtain rfl := harg3.eq_unread hf1; obtain rfl := harg4.eq_unread hf2; obtain rfl := harg5.eq_unread hf3
    obtain rfl := harg6.eq_unread hf4
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      rw [View.read_writes_eq_canon _ _ _ (fun y => ⟨_, List.mem_singleton_self _, View.mem_set_unit_zero (S := S1x512) zero_offsets inb_S1x512_S1x512_0_0 y⟩),
        View.canon_unit_zero (S := S1x512) zero_offsets]
      simp only [View.readAt_eq_ld, harg2.read_unread, harg3.read_unread, harg4.read_unread, harg5.read_unread, harg6.read_unread, harg7.read_unread,
        View.ld_unit_zero (S := S2000x256) zero_offsets, View.ld_unit_zero (S := S512x512) zero_offsets, View.ld_unit_zero (S := S1x512) zero_offsets]
    iexists _; isplitr; swap; · iexact H5
    ipureintro; exact hf5

set_option maxHeartbeats 1000000 in
/-- Case C: output 1 reset then accumulated (whatever it held, `xo`, is overwritten); output 0 as found. -/
theorem runC (c : Dev nD) (i : grid0.Coords) (arg2 : Memref sig .tc .vmem S2000x256 .f32) (harg2 : arg2.IsWhole) (arg3 : Memref sig .tc .vmem S2000x256 .f32) (harg3 : arg3.IsWhole) (arg4 : Memref sig .tc .vmem S512x512 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole)
    (hc0 : ¬ k0_cond1 i = 1#1) (hc1 : k0_cond2 i = 1#1) (hc2 : ¬ k0_cond3 i = 1#1) (hc3 : k0_cond4 i = 1#1)
    (x0 : Vec F S2000x256 .f32) (x1 : Vec F S2000x256 .f32) (x2 : Vec F S512x512 .bf16) (x3 : Vec F S1x512 .f32) (xo : Vec F S1x512 .f32) (di : Vec F S1x512 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare di ∗ owns (c : Thread nD τ) arg7 fullShare xo
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare di ∗ owns (c : Thread nD τ) arg7 fullShare (k0_pay5 x0 x1 x2 x3 (k0_pay3 (F := F)))) -∗ K ⟨⟩))
          ⊢ wp frame (wpE (defs₀ (F := F)) Variants.none c none) E (cc0__readout_kernel i arg2 harg2 arg3 harg3 arg4 harg4 arg5 harg5 arg6 harg6 arg7 harg7) K := by
    intro E K
    simp only [cc0__readout_kernel_eq_skeleton]; unfold cc0__readout_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg2.eq_unread hf0; obtain rfl := harg3.eq_unread hf1; obtain rfl := harg4.eq_unread hf2; obtain rfl := harg5.eq_unread hf3
    obtain rfl := harg7.eq_unread hf5
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro; exact hf4
    iexists _; isplitr; swap; · iexact H5
    ipureintro
    sl_unfold_words
    rw [View.read_writes_eq_canon _ _ _ (fun y => ⟨_, List.mem_cons_self, View.mem_set_unit_zero (S := S1x512) zero_offsets inb_S1x512_S1x512_0_0 y⟩),
      View.canon_cons_unit_zero (S := S1x512) zero_offsets]
    simp only [View.readCov_unit_zero (S := S1x512) _ zero_offsets, View.readAt_eq_ld, harg2.read_unread, harg3.read_unread, harg4.read_unread, harg5.read_unread, harg6.read_unread, harg7.read_unread,
      View.ld_unit_zero (S := S2000x256) zero_offsets, View.ld_unit_zero (S := S512x512) zero_offsets, View.ld_unit_zero (S := S1x512) zero_offsets]

set_option maxHeartbeats 1000000 in
/-- Case D: the tile's partial sum added to what output 1's buffer holds (`xo`); output 0 as found. -/
theorem runD (c : Dev nD) (i : grid0.Coords) (arg2 : Memref sig .tc .vmem S2000x256 .f32) (harg2 : arg2.IsWhole) (arg3 : Memref sig .tc .vmem S2000x256 .f32) (harg3 : arg3.IsWhole) (arg4 : Memref sig .tc .vmem S512x512 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole)
    (hc0 : ¬ k0_cond1 i = 1#1) (hc1 : ¬ k0_cond2 i = 1#1) (hc2 : ¬ k0_cond3 i = 1#1) (hc3 : k0_cond4 i = 1#1)
    (x0 : Vec F S2000x256 .f32) (x1 : Vec F S2000x256 .f32) (x2 : Vec F S512x512 .bf16) (x3 : Vec F S1x512 .f32) (xo : Vec F S1x512 .f32) (di : Vec F S1x512 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare di ∗ owns (c : Thread nD τ) arg7 fullShare xo
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare di ∗ owns (c : Thread nD τ) arg7 fullShare (k0_pay5 x0 x1 x2 x3 xo)) -∗ K ⟨⟩))
          ⊢ wp frame (wpE (defs₀ (F := F)) Variants.none c none) E (cc0__readout_kernel i arg2 harg2 arg3 harg3 arg4 harg4 arg5 harg5 arg6 harg6 arg7 harg7) K := by
    intro E K
    simp only [cc0__readout_kernel_eq_skeleton]; unfold cc0__readout_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg2.eq_unread hf0; obtain rfl := harg3.eq_unread hf1; obtain rfl := harg4.eq_unread hf2; obtain rfl := harg5.eq_unread hf3
    obtain rfl := harg7.eq_unread hf5
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro; exact hf4
    iexists _; isplitr; swap; · iexact H5
    ipureintro
    rw [View.read_writes_eq_canon _ _ _ (fun y => ⟨_, List.mem_singleton_self _, View.mem_set_unit_zero (S := S1x512) zero_offsets inb_S1x512_S1x512_0_0 y⟩),
      View.canon_unit_zero (S := S1x512) zero_offsets]
    simp only [View.readAt_eq_ld, harg2.read_unread, harg3.read_unread, harg4.read_unread, harg5.read_unread, harg6.read_unread, harg7.read_unread,
      View.ld_unit_zero (S := S2000x256) zero_offsets, View.ld_unit_zero (S := S512x512) zero_offsets, View.ld_unit_zero (S := S1x512) zero_offsets]

end Cert.KernelIdeal.Body

end
-- ==== Proof.KIData.lean ====
/-
  The pipeline's proof data for the one region, its body obligation, the run and the frame.

  Output 0's buffer is live on the first half of the grid (points 0..49) and idle on the second; output 1's is idle on
  the first half and live on the second (points 50..99); both blocks are written back once, after the last point.
  So after point `n`:
    output 0 holds `acc0 n` — at point 0 zero plus the tile's partial sum, at a point 1..49 what the point before left
      plus the tile's partial sum, and from point 50 on what point 49 left, carried unchanged through the idle points
      up to the write-back;
    output 1 holds `acc1 n` — from point 50 on the same accumulation over the second half's tiles (before point 50 its
      buffer is never read: the reset at point 50 overwrites it, so the value named there is immaterial).
-/
import proofs.«140598_j47545287967106_1_alg».proof.Proof.KIRuns
import proofs.«140598_j47545287967106_1_alg».proof.Proof.LibIdleCarry

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid in closed form: the body's four conditions, and where the two outputs are idle -/

/-- "first half and first tile": at point 0 only. -/
theorem hcond1 : ∀ t : Fin cfg0.N, k0_cond1 (grid0.coords t) = 1#1 ↔ t.val = 0 :=
  (by decide +kernel : ∀ t : Fin grid0.N, k0_cond1 (grid0.coords t) = 1#1 ↔ t.val = 0)
/-- "second half and first tile": at point 50 only. -/
theorem hcond2 : ∀ t : Fin cfg0.N, k0_cond2 (grid0.coords t) = 1#1 ↔ t.val = 50 :=
  (by decide +kernel : ∀ t : Fin grid0.N, k0_cond2 (grid0.coords t) = 1#1 ↔ t.val = 50)
/-- "first half": points 0..49. -/
theorem hcond3 : ∀ t : Fin cfg0.N, k0_cond3 (grid0.coords t) = 1#1 ↔ t.val < 50 :=
  (by decide +kernel : ∀ t : Fin grid0.N, k0_cond3 (grid0.coords t) = 1#1 ↔ t.val < 50)
/-- "second half": points 50..99. -/
theorem hcond4 : ∀ t : Fin cfg0.N, k0_cond4 (grid0.coords t) = 1#1 ↔ 50 ≤ t.val :=
  (by decide +kernel : ∀ t : Fin grid0.N, k0_cond4 (grid0.coords t) = 1#1 ↔ 50 ≤ t.val)

/-- Output 0 is idle exactly on the second half. -/
theorem idle4 : ∀ t : Fin cfg0.N, cfg0.idle 4 (grid0.coords t) = true ↔ 50 ≤ t.val :=
  (by decide +kernel : ∀ t : Fin grid0.N, cfg0.idle 4 (grid0.coords t) = true ↔ 50 ≤ t.val)
/-- Output 1 is idle exactly on the first half. -/
theorem idle5 : ∀ t : Fin cfg0.N, cfg0.idle 5 (grid0.coords t) = true ↔ t.val < 50 :=
  (by decide +kernel : ∀ t : Fin grid0.N, cfg0.idle 5 (grid0.coords t) = true ↔ t.val < 50)
/-- The inputs are never idle. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel

theorem lt_N {n : ℕ} (h : n < 100) : n < cfg0.N := lt_of_lt_of_eq h N_0.symm
theorem val_lt (t : Fin cfg0.N) : t.val < 100 := lt_of_lt_of_eq t.isLt (show cfg0.N = 100 from N_0)

/-! ## The staging memrefs the pipeline hands the body at a point -/

abbrev stg0 (t : Fin cfg0.N) : Memref sig .tc .vmem S2000x256 .f32 := win0_0.stage (cfg0.slots t 0)
abbrev whole0 (t : Fin cfg0.N) : (stg0 t).IsWhole := hstage0_0 ((cfg0.slots t 0).cast nbuf0_0)
abbrev stg1 (t : Fin cfg0.N) : Memref sig .tc .vmem S2000x256 .f32 := win0_1.stage (cfg0.slots t 1)
abbrev whole1 (t : Fin cfg0.N) : (stg1 t).IsWhole := hstage0_1 ((cfg0.slots t 1).cast nbuf0_1)
abbrev stg2 (t : Fin cfg0.N) : Memref sig .tc .vmem S512x512 .bf16 := win0_2.stage (cfg0.slots t 2)
abbrev whole2 (t : Fin cfg0.N) : (stg2 t).IsWhole := hstage0_2 ((cfg0.slots t 2).cast nbuf0_2)
abbrev stg3 (t : Fin cfg0.N) : Memref sig .tc .vmem S1x512 .f32 := win0_3.stage (cfg0.slots t 3)
abbrev whole3 (t : Fin cfg0.N) : (stg3 t).IsWhole := hstage0_3 ((cfg0.slots t 3).cast nbuf0_3)
abbrev stg4 (t : Fin cfg0.N) : Memref sig .tc .vmem S1x512 .f32 := win0_4.stage (cfg0.slots t 4)
abbrev whole4 (t : Fin cfg0.N) : (stg4 t).IsWhole := hstage0_4 ((cfg0.slots t 4).cast nbuf0_4)
abbrev stg5 (t : Fin cfg0.N) : Memref sig .tc .vmem S1x512 .f32 := win0_5.stage (cfg0.slots t 5)
abbrev whole5 (t : Fin cfg0.N) : (stg5 t).IsWhole := hstage0_5 ((cfg0.slots t 5).cast nbuf0_5)

/-! ## What the two outputs' buffers hold after each point -/

/-- Output 0's buffer after point `n`. -/
def acc0 (c : Dev nD) : (n : ℕ) → n < cfg0.N → Vec F S1x512 .f32
  | 0, hn => k0_pay4 (iblk m c 0 ⟨0, hn⟩) (iblk m c 1 ⟨0, hn⟩) (iblk m c 2 ⟨0, hn⟩) (iblk m c 3 ⟨0, hn⟩) (k0_pay2 (F := F))
  | n + 1, hn =>
    if n + 1 < 50 then
      k0_pay4 (iblk m c 0 ⟨n + 1, hn⟩) (iblk m c 1 ⟨n + 1, hn⟩) (iblk m c 2 ⟨n + 1, hn⟩) (iblk m c 3 ⟨n + 1, hn⟩) (acc0 c n (Nat.lt_of_succ_lt hn))
    else acc0 c n (Nat.lt_of_succ_lt hn)

/-- Output 1's buffer after point `n` (named zero before point 50, where nothing reads it). -/
def acc1 (c : Dev nD) : (n : ℕ) → n < cfg0.N → Vec F S1x512 .f32
  | 0, _ => k0_pay3 (F := F)
  | n + 1, hn =>
    if n + 1 < 50 then k0_pay3 (F := F)
    else if n + 1 = 50 then
      k0_pay5 (iblk m c 0 ⟨n + 1, hn⟩) (iblk m c 1 ⟨n + 1, hn⟩) (iblk m c 2 ⟨n + 1, hn⟩) (iblk m c 3 ⟨n + 1, hn⟩) (k0_pay3 (F := F))
    else
      k0_pay5 (iblk m c 0 ⟨n + 1, hn⟩) (iblk m c 1 ⟨n + 1, hn⟩) (iblk m c 2 ⟨n + 1, hn⟩) (iblk m c 3 ⟨n + 1, hn⟩) (acc1 c n (Nat.lt_of_succ_lt hn))

theorem pred_lt (t : Fin cfg0.N) : t.val - 1 < cfg0.N := Nat.lt_of_le_of_lt (Nat.sub_le _ _) t.isLt

theorem acc0_first (c : Dev nD) (t : Fin cfg0.N) (h : t.val = 0) :
    acc0 m c t.val t.isLt = k0_pay4 (iblk m c 0 t) (iblk m c 1 t) (iblk m c 2 t) (iblk m c 3 t) (k0_pay2 (F := F)) := by
  obtain ⟨n, hn⟩ := t
  cases n with
  | zero => rfl
  | succ n => exact absurd h (Nat.succ_ne_zero n)

theorem acc0_lo (c : Dev nD) (t : Fin cfg0.N) (h0 : t.val ≠ 0) (h : t.val < 50) :
    acc0 m c t.val t.isLt = k0_pay4 (iblk m c 0 t) (iblk m c 1 t) (iblk m c 2 t) (iblk m c 3 t) (acc0 m c (t.val - 1) (pred_lt t)) := by
  obtain ⟨n, hn⟩ := t
  cases n with
  | zero => exact absurd rfl h0
  | succ n => exact (if_pos h).trans rfl

theorem acc0_hi (c : Dev nD) (t : Fin cfg0.N) (h : 50 ≤ t.val) :
    acc0 m c t.val t.isLt = acc0 m c (t.val - 1) (pred_lt t) := by
  obtain ⟨n, hn⟩ := t
  cases n with
  | zero => exact absurd h (by decide : ¬ (50 : ℕ) ≤ 0)
  | succ n => exact (if_neg (Nat.not_lt.mpr h)).trans rfl

/-- From point 49 on output 0's buffer no longer changes. -/
theorem acc0_from49 (c : Dev nD) : ∀ (n : ℕ) (hn : 49 + n < cfg0.N), acc0 m c (49 + n) hn = acc0 m c 49 (lt_N (by decide))
  | 0, _ => rfl
  | n + 1, hn => (acc0_hi m c ⟨49 + (n + 1), hn⟩ (by show 50 ≤ 49 + (n + 1); omega)).trans (acc0_from49 c n (Nat.lt_of_succ_lt hn))

theorem acc0_ge49 (c : Dev nD) (t : Fin cfg0.N) (h : 49 ≤ t.val) : acc0 m c t.val t.isLt = acc0 m c 49 (lt_N (by decide)) := by
  obtain ⟨n, hn⟩ := t
  obtain ⟨k, rfl⟩ : ∃ k, n = 49 + k := ⟨n - 49, by have : 49 ≤ n := h; omega⟩
  exact acc0_from49 m c k hn

theorem acc1_first (c : Dev nD) (t : Fin cfg0.N) (h : t.val = 50) :
    acc1 m c t.val t.isLt = k0_pay5 (iblk m c 0 t) (iblk m c 1 t) (iblk m c 2 t) (iblk m c 3 t) (k0_pay3 (F := F)) := by
  obtain ⟨n, hn⟩ := t
  cases n with
  | zero => exact absurd h (by decide : ¬ (0 : ℕ) = 50)
  | succ n => exact (if_neg (by have : n + 1 = 50 := h; omega)).trans ((if_pos h).trans rfl)

theorem acc1_hi (c : Dev nD) (t : Fin cfg0.N) (h : 50 < t.val) :
    acc1 m c t.val t.isLt = k0_pay5 (iblk m c 0 t) (iblk m c 1 t) (iblk m c 2 t) (iblk m c 3 t) (acc1 m c (t.val - 1) (pred_lt t)) := by
  obtain ⟨n, hn⟩ := t
  cases n with
  | zero => exact absurd h (by decide : ¬ (50 : ℕ) < 0)
  | succ n => exact (if_neg (by have : 50 < n + 1 := h; omega)).trans ((if_neg (by have : 50 < n + 1 := h; omega)).trans rfl)

/-! ## The proof data -/

/-- The arrays as the region finds them; after the body at point `t` each input's buffer at its block, output 0's at
    `acc0 t`, output 1's at `acc1 t`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => acc0 m c t.val t.isLt
    | ⟨5, _⟩ => acc1 m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = acc0 m c t.val t.isLt := by dsimp only [dats]
theorem after_5 (c : Dev nD) (t : Fin cfg0.N) : (dats m 0 c).after 5 t = acc1 m c t.val t.isLt := by dsimp only [dats]

/-- Each input's current buffer holds its block at every point. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- Neither output is written back before the last point. -/
theorem noflush4 (t : Fin cfg0.N) (h : t.val ≠ 99) : (cfg0.win 4).flush t = false :=
  Bool.eq_false_iff.mpr fun h' => by have := (flush0_4 t).mp h'; have := val_lt t; omega
theorem noflush5 (t : Fin cfg0.N) (h : t.val ≠ 99) : (cfg0.win 5).flush t = false :=
  Bool.eq_false_iff.mpr fun h' => by have := (flush0_5 t).mp h'; have := val_lt t; omega

/-- At a point 1..49 output 0's buffer holds what the point before left. -/
theorem before4_lo (c : Dev nD) (t : Fin cfg0.N) (h0 : t.val ≠ 0) (h : t.val < 50) (d) :
    (dats m 0 c).before 4 t d = acc0 m c (t.val - 1) (pred_lt t) := by
  rw [Pipeline.Dat.before_out_after_live _ 4 rfl t h0
    (noflush4 _ (by show t.val - 1 ≠ 99; omega))
    (Bool.eq_false_iff.mpr fun h' => by have := (idle4 _).mp h'; have : 50 ≤ t.val - 1 := this; omega)
    (fun _ => rfl)]
  dsimp only [dats]

/-- From point 50 on output 0's buffer holds what point 49 left: it is carried through the idle points. -/
theorem before4_from50 (c : Dev nD) (d) : ∀ (n : ℕ) (hn : 50 + n < cfg0.N),
    (dats m 0 c).before 4 ⟨50 + n, hn⟩ d = acc0 m c 49 (lt_N (by decide))
  | 0, hn => by
    rw [Pipeline.Dat.before_out_after_live _ 4 rfl ⟨50 + 0, hn⟩ (by decide : (50 + 0 : ℕ) ≠ 0)
      (noflush4 _ (by decide : (50 + 0 - 1 : ℕ) ≠ 99))
      (Bool.eq_false_iff.mpr fun h' => by have := (idle4 _).mp h'; have : 50 ≤ 50 + 0 - 1 := this; omega)
      (fun _ => rfl)]
    dsimp only [dats]
  | n + 1, hn => by
    have hlt : 50 + (n + 1) < 100 := lt_of_lt_of_eq hn N_0
    rw [Pipeline.Dat.before_out_after_idle _ 4 rfl ⟨50 + (n + 1), hn⟩ (by show 50 + (n + 1) ≠ 0; omega)
      (noflush4 _ (by show 50 + (n + 1) - 1 ≠ 99; omega))
      ((idle4 _).mpr (by show 50 ≤ 50 + (n + 1) - 1; omega))]
    exact before4_from50 c d n (Nat.lt_of_succ_lt hn)

theorem before4_hi (c : Dev nD) (t : Fin cfg0.N) (h : 50 ≤ t.val) (d) :
    (dats m 0 c).before 4 t d = acc0 m c 49 (lt_N (by decide)) := by
  obtain ⟨n, hn⟩ := t
  obtain ⟨k, rfl⟩ : ∃ k, n = 50 + k := ⟨n - 50, by have : 50 ≤ n := h; omega⟩
  exact before4_from50 m c d k hn

/-- At a point 51..99 output 1's buffer holds what the point before left. -/
theorem before5_hi (c : Dev nD) (t : Fin cfg0.N) (h : 50 < t.val) (d) :
    (dats m 0 c).before 5 t d = acc1 m c (t.val - 1) (pred_lt t) := by
  have := val_lt t
  rw [Pipeline.Dat.before_out_after_live _ 5 rfl t (by omega)
    (noflush5 _ (by show t.val - 1 ≠ 99; omega))
    (Bool.eq_false_iff.mpr fun h' => by have := (idle5 _).mp h'; have : t.val - 1 < 50 := this; omega)
    (fun _ => rfl)]
  dsimp only [dats]

end Cert.KernelIdeal.Body

end
-- ==== Proof.KIFrame.lean ====
/-
  The body obligation at every grid point, the run of the whole program and its frame.

  At a point the pipeline hands the body each window's current buffer: the inputs at their blocks, each output at what
  it holds by the bookkeeping of the points before. The point's position selects the case of the body's run; a live
  output is left at the next value of its accumulator, an idle one as found — and at the last point, where output 0 is
  idle but written back, "as found" is what point 49 left, which is the value the proof data name there.
-/
import proofs.«140598_j47545287967106_1_alg».proof.Proof.KIData

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

/-- An input is never idle: its buffer is left at its block. -/
theorem leaves_in0 (c : Dev nD) (t : Fin cfg0.N) : (dats m 0 c).leavesExact 0 t = owns (c : Thread nD τ) (stg0 t) fullShare (iblk m c 0 t) := by
  rw [show (dats m 0 c).leavesExact 0 t = owns (c : Thread nD τ) (stg0 t) fullShare ((dats m 0 c).after 0 t) from by
    unfold Dat.leavesExact; rw [live0 t], after_0]
theorem leaves_in1 (c : Dev nD) (t : Fin cfg0.N) : (dats m 0 c).leavesExact 1 t = owns (c : Thread nD τ) (stg1 t) fullShare (iblk m c 1 t) := by
  rw [show (dats m 0 c).leavesExact 1 t = owns (c : Thread nD τ) (stg1 t) fullShare ((dats m 0 c).after 1 t) from by
    unfold Dat.leavesExact; rw [live1 t], after_1]
theorem leaves_in2 (c : Dev nD) (t : Fin cfg0.N) : (dats m 0 c).leavesExact 2 t = owns (c : Thread nD τ) (stg2 t) fullShare (iblk m c 2 t) := by
  rw [show (dats m 0 c).leavesExact 2 t = owns (c : Thread nD τ) (stg2 t) fullShare ((dats m 0 c).after 2 t) from by
    unfold Dat.leavesExact; rw [live2 t], after_2]
theorem leaves_in3 (c : Dev nD) (t : Fin cfg0.N) : (dats m 0 c).leavesExact 3 t = owns (c : Thread nD τ) (stg3 t) fullShare (iblk m c 3 t) := by
  rw [show (dats m 0 c).leavesExact 3 t = owns (c : Thread nD τ) (stg3 t) fullShare ((dats m 0 c).after 3 t) from by
    unfold Dat.leavesExact; rw [live3 t], after_3]

/-- Output 0 is live on the first half, output 1 on the second. -/
theorem live4 (t : Fin cfg0.N) (h : t.val < 50) : cfg0.idle 4 (grid0.coords t) = false :=
  Bool.eq_false_iff.mpr fun h' => by have := (idle4 t).mp h'; omega
theorem live5 (t : Fin cfg0.N) (h : 50 ≤ t.val) : cfg0.idle 5 (grid0.coords t) = false :=
  Bool.eq_false_iff.mpr fun h' => by have := (idle5 t).mp h'; omega

/-- Output 0 on the first half: left at its accumulator. -/
theorem leaves4_live (c : Dev nD) (t : Fin cfg0.N) (h : t.val < 50) :
    (dats m 0 c).leavesExact 4 t = owns (c : Thread nD τ) (stg4 t) fullShare (acc0 m c t.val t.isLt) := by
  rw [show (dats m 0 c).leavesExact 4 t = owns (c : Thread nD τ) (stg4 t) fullShare ((dats m 0 c).after 4 t) from by
    unfold Dat.leavesExact; rw [live4 t h], after_4]
/-- Output 0 at the last point, idle but written back: left at what the proof data name. -/
theorem leaves4_last (c : Dev nD) (t : Fin cfg0.N) (h : t.val = 99) :
    (dats m 0 c).leavesExact 4 t = owns (c : Thread nD τ) (stg4 t) fullShare (acc0 m c t.val t.isLt) := by
  rw [show (dats m 0 c).leavesExact 4 t = owns (c : Thread nD τ) (stg4 t) fullShare ((dats m 0 c).after 4 t) from by
    unfold Dat.leavesExact; rw [(idle4 t).mpr (by omega), (flush0_4 t).mpr (by omega)], after_4]
/-- Output 1 on the second half: left at its accumulator. -/
theorem leaves5_live (c : Dev nD) (t : Fin cfg0.N) (h : 50 ≤ t.val) :
    (dats m 0 c).leavesExact 5 t = owns (c : Thread nD τ) (stg5 t) fullShare (acc1 m c t.val t.isLt) := by
  rw [show (dats m 0 c).leavesExact 5 t = owns (c : Thread nD τ) (stg5 t) fullShare ((dats m 0 c).after 5 t) from by
    unfold Dat.leavesExact; rw [live5 t h], after_5]

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    leaves_in0, leaves_in1, leaves_in2, leaves_in3]
  have hN := val_lt t
  by_cases hA : t.val = 0
  · -- the first point of the first half
    rw [leaves4_live m c t (by omega), acc0_first m c t hA,
      Dat.leavesExact_idle _ 5 t ((idle5 t).mpr (by omega)) (noflush5 t (by omega))]
    iintro ⟨HΦ, Ho, ⟨%d0, H0⟩, ⟨%d1, H1⟩, ⟨%d2, H2⟩, ⟨%d3, H3⟩, ⟨%d4, H4⟩, ⟨%d5, H5⟩⟩
    iapply (runA c (grid0.coords t) _ _ _ _ _ _ _ _ _ _ _ _ ((hcond1 t).mpr hA) (fun h => by have := (hcond2 t).mp h; omega)
      ((hcond3 t).mpr (by omega)) (fun h => by have := (hcond4 t).mp h; omega)
      (iblk m c 0 t) (iblk m c 1 t) (iblk m c 2 t) (iblk m c 3 t) ((dats m 0 c).before 4 t d4) ((dats m 0 c).before 5 t d5) Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexists d5; iexact H5
  by_cases hB : t.val < 50
  · -- a later point of the first half
    rw [leaves4_live m c t hB, acc0_lo m c t hA hB,
      Dat.leavesExact_idle _ 5 t ((idle5 t).mpr hB) (noflush5 t (by omega))]
    simp only [before4_lo m c t hA hB]
    iintro ⟨HΦ, Ho, ⟨%d0, H0⟩, ⟨%d1, H1⟩, ⟨%d2, H2⟩, ⟨%d3, H3⟩, ⟨%d4, H4⟩, ⟨%d5, H5⟩⟩
    iapply (runB c (grid0.coords t) _ _ _ _ _ _ _ _ _ _ _ _ (fun h => by have := (hcond1 t).mp h; omega) (fun h => by have := (hcond2 t).mp h; omega)
      ((hcond3 t).mpr hB) (fun h => by have := (hcond4 t).mp h; omega)
      (iblk m c 0 t) (iblk m c 1 t) (iblk m c 2 t) (iblk m c 3 t) (acc0 m c (t.val - 1) (pred_lt t)) ((dats m 0 c).before 5 t d5) Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexists d5; iexact H5
  by_cases hC : t.val = 50
  · -- the first point of the second half
    rw [Dat.leavesExact_idle _ 4 t ((idle4 t).mpr (by omega)) (noflush4 t (by omega)),
      leaves5_live m c t (by omega), acc1_first m c t hC]
    iintro ⟨HΦ, Ho, ⟨%d0, H0⟩, ⟨%d1, H1⟩, ⟨%d2, H2⟩, ⟨%d3, H3⟩, ⟨%d4, H4⟩, ⟨%d5, H5⟩⟩
    iapply (runC c (grid0.coords t) _ _ _ _ _ _ _ _ _ _ _ _ (fun h => by have := (hcond1 t).mp h; omega) ((hcond2 t).mpr hC)
      (fun h => by have := (hcond3 t).mp h; omega) ((hcond4 t).mpr (by omega))
      (iblk m c 0 t) (iblk m c 1 t) (iblk m c 2 t) (iblk m c 3 t) ((dats m 0 c).before 5 t d5) ((dats m 0 c).before 4 t d4) Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexists d4; iexact H4
    iexact H5
  by_cases hL : t.val = 99
  · -- the last point: output 0, idle, is written back at what point 49 left
    rw [leaves4_last m c t hL, acc0_ge49 m c t (by omega),
      leaves5_live m c t (by omega), acc1_hi m c t (by omega)]
    simp only [before4_hi m c t (by omega), before5_hi m c t (by omega)]
    iintro ⟨HΦ, Ho, ⟨%d0, H0⟩, ⟨%d1, H1⟩, ⟨%d2, H2⟩, ⟨%d3, H3⟩, ⟨%d4, H4⟩, ⟨%d5, H5⟩⟩
    iapply (runD c (grid0.coords t) _ _ _ _ _ _ _ _ _ _ _ _ (fun h => by have := (hcond1 t).mp h; omega) (fun h => by have := (hcond2 t).mp h; omega)
      (fun h => by have := (hcond3 t).mp h; omega) ((hcond4 t).mpr (by omega))
      (iblk m c 0 t) (iblk m c 1 t) (iblk m c 2 t) (iblk m c 3 t) (acc1 m c (t.val - 1) (pred_lt t)) (acc0 m c 49 (lt_N (by decide))) Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · -- a later point of the second half
    rw [Dat.leavesExact_idle _ 4 t ((idle4 t).mpr (by omega)) (noflush4 t hL),
      leaves5_live m c t (by omega), acc1_hi m c t (by omega)]
    simp only [before5_hi m c t (by omega)]
    iintro ⟨HΦ, Ho, ⟨%d0, H0⟩, ⟨%d1, H1⟩, ⟨%d2, H2⟩, ⟨%d3, H3⟩, ⟨%d4, H4⟩, ⟨%d5, H5⟩⟩
    iapply (runD c (grid0.coords t) _ _ _ _ _ _ _ _ _ _ _ _ (fun h => by have := (hcond1 t).mp h; omega) (fun h => by have := (hcond2 t).mp h; omega)
      (fun h => by have := (hcond3 t).mp h; omega) ((hcond4 t).mpr (by omega))
      (iblk m c 0 t) (iblk m c 1 t) (iblk m c 2 t) (iblk m c 3 t) (acc1 m c (t.val - 1) (pred_lt t)) ((dats m 0 c).before 4 t d4) Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexists d4; iexact H4
    iexact H5

/-- The library's body obligation, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of the program terminates, every array of the pipeline ends at what the proof data
    compute (the inputs as found, output 0 at `acc0`'s last value, output 1 at `acc1`'s), and every other buffer at what
    the closing host addition leaves. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs and its four argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Body

end
-- ==== Proof.KIArrays.lean ====
/-
  The blocks and the arrays of the region under names of their literal types, each input block read at an index off its
  array, and the two output arrays after the run.

  Window 0 and 1 walk the two 200000×256 arrays in tiles of 2000 rows: point `t` reads rows `2000·t … 2000·t + 1999`.
  The weight, bias and both output windows stay on their one block. Each output block is written back once, after the
  last point, so the output array ends holding what its buffer held then.
-/
import proofs.«140598_j47545287967106_1_alg».proof.Proof.KIData
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]

variable (m : (ℓ : Loc nD τ sig) → Buf (Elt F) ℓ)

/-- The printed index maps over the grid: the two row-tiled inputs are at block `(t, 0)`, everything else at block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-! ## Names of literal types -/

abbrev blk0 (c : Dev nD) (t : Fin cfg0.N) : Vec F S2000x256 .f32 := iblk m c 0 t
abbrev blk1 (c : Dev nD) (t : Fin cfg0.N) : Vec F S2000x256 .f32 := iblk m c 1 t
abbrev blk2 (c : Dev nD) (t : Fin cfg0.N) : Vec F S512x512 .bf16 := iblk m c 2 t
abbrev blk3 (c : Dev nD) (t : Fin cfg0.N) : Vec F S1x512 .f32 := iblk m c 3 t
abbrev arr0 (c : Dev nD) : Vec F S200000x256 .f32 := V m c main_arg0
abbrev arr1 (c : Dev nD) : Vec F S200000x256 .f32 := V m c main_arg1
abbrev arr2 (c : Dev nD) : Vec F S512x512 .bf16 := V m c main_v0
abbrev arr3 (c : Dev nD) : Vec F S1x512 .f32 := V m c main_v1

/-- Row `s` of tile `t`. -/
abbrev rowOf (t : Fin cfg0.N) (s : Fin 2000) : Fin 200000 :=
  ⟨t.val * 2000 + s.val, by have := val_lt t; have := s.isLt; omega⟩

/-! ## Each input block read at an index -/

theorem blk0_apply (c : Dev nD) (t : Fin cfg0.N) (s : Fin 2000) (k : Fin 256) :
    blk0 m c t (ix2 s k) = arr0 m c (ix2 (rowOf t s) k) := by
  obtain ⟨e0, e1, -⟩ := idx_facts t
  show V m c main_arg0 (((cfg0.win 0).blk t).view.emb (ix2 s k)) = V m c main_arg0 (ix2 (rowOf t s) k)
  refine congrArg (V m c main_arg0) (funext fun a => Fin.ext ?_)
  match a with
  | ⟨0, _⟩ => show win0_0.index t (0 : Fin 2) * 2000 + 1 * s.val = t.val * 2000 + s.val; omega
  | ⟨1, _⟩ => show win0_0.index t (1 : Fin 2) * 256 + 1 * k.val = k.val; omega

theorem blk1_apply (c : Dev nD) (t : Fin cfg0.N) (s : Fin 2000) (k : Fin 256) :
    blk1 m c t (ix2 s k) = arr1 m c (ix2 (rowOf t s) k) := by
  obtain ⟨-, -, e0, e1, -⟩ := idx_facts t
  show V m c main_arg1 (((cfg0.win 1).blk t).view.emb (ix2 s k)) = V m c main_arg1 (ix2 (rowOf t s) k)
  refine congrArg (V m c main_arg1) (funext fun a => Fin.ext ?_)
  match a with
  | ⟨0, _⟩ => show win0_1.index t (0 : Fin 2) * 2000 + 1 * s.val = t.val * 2000 + s.val; omega
  | ⟨1, _⟩ => show win0_1.index t (1 : Fin 2) * 256 + 1 * k.val = k.val; omega

theorem blk2_apply (c : Dev nD) (t : Fin cfg0.N) (q k : Fin 512) :
    blk2 m c t (ix2 q k) = arr2 m c (ix2 q k) := by
  obtain ⟨-, -, -, -, e0, e1, -⟩ := idx_facts t
  show V m c main_v0 (((cfg0.win 2).blk t).view.emb (ix2 q k)) = V m c main_v0 (ix2 q k)
  refine congrArg (V m c main_v0) (funext fun a => Fin.ext ?_)
  match a with
  | ⟨0, _⟩ => show win0_2.index t (0 : Fin 2) * 512 + 1 * q.val = q.val; omega
  | ⟨1, _⟩ => show win0_2.index t (1 : Fin 2) * 512 + 1 * k.val = k.val; omega

theorem blk3_apply (c : Dev nD) (t : Fin cfg0.N) (p : Fin 1) (q : Fin 512) :
    blk3 m c t (ix2 p q) = arr3 m c (ix2 p q) := by
  obtain ⟨-, -, -, -, -, -, e0, e1, -⟩ := idx_facts t
  show V m c main_v1 (((cfg0.win 3).blk t).view.emb (ix2 p q)) = V m c main_v1 (ix2 p q)
  refine congrArg (V m c main_v1) (funext fun a => Fin.ext ?_)
  match a with
  | ⟨0, _⟩ => show win0_3.index t (0 : Fin 2) * 1 + 1 * p.val = p.val; omega
  | ⟨1, _⟩ => show win0_3.index t (1 : Fin 2) * 512 + 1 * q.val = q.val; omega

/-! ## The output arrays after the run -/

theorem last_lt : 99 < cfg0.N := lt_N (by decide)

/-- Output 0's array ends at what its buffer held after point 49 (carried to the write-back at the last point). -/
theorem final4 (c : Dev nD) : (dats m 0 c).arrAt 4 cfg0.N = acc0 m c 49 (lt_N (by decide)) := by
  refine (dats m 0 c).arrAt_eq_of_cover 4 (acc0 m c 49 (lt_N (by decide))) (fun t hf => ?_) (fun i => ?_)
  · have ht : t.val = 99 := by have := (flush0_4 t).mp hf; have := val_lt t; omega
    obtain ⟨-, -, -, -, -, -, -, -, e0, e1, -⟩ := idx_facts t
    show (cfg0.win 4).cut (grid0.coords t) ((dats m 0 c).after 4 t) = _
    rw [after_4, acc0_ge49 m c t (by omega)]
    funext j
    show acc0 m c 49 (lt_N (by decide)) j = acc0 m c 49 (lt_N (by decide)) (((cfg0.win 4).blk t).view.emb j)
    refine congrArg (acc0 m c 49 (lt_N (by decide))) (funext fun a => Fin.ext ?_)
    match a with
    | ⟨0, _⟩ => show (j 0).val = win0_4.index t (0 : Fin 2) * 1 + 1 * (j 0).val; omega
    | ⟨1, _⟩ => show (j 1).val = win0_4.index t (1 : Fin 2) * 512 + 1 * (j 1).val; omega
  · obtain ⟨-, -, -, -, -, -, -, -, e0, e1, -⟩ := idx_facts ⟨99, last_lt⟩
    refine ⟨⟨99, last_lt⟩, (flush0_4 _).mpr rfl, ?_⟩
    show i ∈ ((View.whole main_v2_0).slice (win0_4.rect ⟨99, last_lt⟩)).set
    rw [View.set_slice_whole, Rect.mem_set_unit]
    intro a
    match a with
    | ⟨0, _⟩ =>
      show win0_4.index ⟨99, last_lt⟩ (0 : Fin 2) * 1 ≤ (i 0).val ∧ (i 0).val < win0_4.index ⟨99, last_lt⟩ (0 : Fin 2) * 1 + 1
      have hi : (i 0).val < 1 := (i 0).isLt
      omega
    | ⟨1, _⟩ =>
      show win0_4.index ⟨99, last_lt⟩ (1 : Fin 2) * 512 ≤ (i 1).val ∧ (i 1).val < win0_4.index ⟨99, last_lt⟩ (1 : Fin 2) * 512 + 512
      have hi : (i 1).val < 512 := (i 1).isLt
      omega

/-- Output 1's array ends at what its buffer held after the last point. -/
theorem final5 (c : Dev nD) : (dats m 0 c).arrAt 5 cfg0.N = acc1 m c 99 last_lt := by
  refine (dats m 0 c).arrAt_eq_of_cover 5 (acc1 m c 99 last_lt) (fun t hf => ?_) (fun i => ?_)
  · have ht : t.val = 99 := by have := (flush0_5 t).mp hf; have := val_lt t; omega
    obtain ⟨-, -, -, -, -, -, -, -, -, -, e0, e1⟩ := idx_facts t
    show (cfg0.win 5).cut (grid0.coords t) ((dats m 0 c).after 5 t) = _
    rw [after_5]
    obtain ⟨n, hn⟩ := t
    obtain rfl : n = 99 := ht
    funext j
    show acc1 m c 99 hn j = acc1 m c 99 last_lt (((cfg0.win 5).blk ⟨99, hn⟩).view.emb j)
    refine congrArg (acc1 m c 99 last_lt) (funext fun a => Fin.ext ?_)
    match a with
    | ⟨0, _⟩ => show (j 0).val = win0_5.index ⟨99, hn⟩ (0 : Fin 2) * 1 + 1 * (j 0).val; omega
    | ⟨1, _⟩ => show (j 1).val = win0_5.index ⟨99, hn⟩ (1 : Fin 2) * 512 + 1 * (j 1).val; omega
  · obtain ⟨-, -, -, -, -, -, -, -, -, -, e0, e1⟩ := idx_facts ⟨99, last_lt⟩
    refine ⟨⟨99, last_lt⟩, (flush0_5 _).mpr rfl, ?_⟩
    show i ∈ ((View.whole main_v2_1).slice (win0_5.rect ⟨99, last_lt⟩)).set
    rw [View.set_slice_whole, Rect.mem_set_unit]
    intro a
    match a with
    | ⟨0, _⟩ =>
      show win0_5.index ⟨99, last_lt⟩ (0 : Fin 2) * 1 ≤ (i 0).val ∧ (i 0).val < win0_5.index ⟨99, last_lt⟩ (0 : Fin 2) * 1 + 1
      have hi : (i 0).val < 1 := (i 0).isLt
      omega
    | ⟨1, _⟩ =>
      show win0_5.index ⟨99, last_lt⟩ (1 : Fin 2) * 512 ≤ (i 1).val ∧ (i 1).val < win0_5.index ⟨99, last_lt⟩ (1 : Fin 2) * 512 + 512
      have hi : (i 1).val < 512 := (i 1).isLt
      omega

end Cert.KernelIdeal.Body

end
-- ==== Proof.LibDotForms.lean ====
/-
  Two transposed matrix products read at an entry.

  `A · Bᵀ` — an M×K array times the transpose of an N×K array: both operands are contracted along their second axis,
  and the result entry (p, q) is `∑ i : Fin K, lhs (p, i) * rhs (q, i)`.
  `Aᵀ · B` — the transpose of a K×M array times a K×N array: both operands are contracted along their first axis,
  and the result entry (p, q) is `∑ i : Fin K, lhs (i, p) * rhs (i, q)`.
  Each statement is for ANY record with those dimension numbers and no batch axes, at every size, for a kernel's
  product into a zero accumulator and for a host `dot_general` alike.
-/
import Idealize.ShloMosaic.Lib.ValueIdx
import Idealize.ShloMosaic.PureOps.Ideal.Laws

noncomputable section

open scoped BigOperators

namespace DotForms

open Idealize.ShloMosaic Idealize.ShloMosaic.ValueIdx

variable {M K N : Nat}

/-- `A · Bᵀ`: contract axis 1 of the left operand with axis 1 of the right one; the operands' axes 0 are the result's. -/
structure IsABt (d : DotDims ⟨2, ![M, K]⟩ ⟨2, ![N, K]⟩ ⟨2, ![M, N]⟩) : Prop where
  lc : d.lhsContracting = [1]
  rc : d.rhsContracting = [1]
  ln : d.lhsNonContracting = [0]
  rn : d.rhsNonContracting = [0]
  lb : d.lhsBatch = []
  rb : d.rhsBatch = []

/-- `Aᵀ · B`: contract axis 0 of the left operand with axis 0 of the right one; the operands' axes 1 are the result's. -/
structure IsAtB (d : DotDims ⟨2, ![K, M]⟩ ⟨2, ![K, N]⟩ ⟨2, ![M, N]⟩) : Prop where
  lc : d.lhsContracting = [0]
  rc : d.rhsContracting = [0]
  ln : d.lhsNonContracting = [1]
  rn : d.rhsNonContracting = [1]
  lb : d.lhsBatch = []
  rb : d.rhsBatch = []

section ABt

variable {d : DotDims ⟨2, ![M, K]⟩ ⟨2, ![N, K]⟩ ⟨2, ![M, N]⟩}

/-- `A · Bᵀ`: the left operand's row coordinate is the result's row. -/
theorem abt_lhs_row (h : IsABt d) (j : (⟨2, ![M, N]⟩ : Shape).Idx) (k : d.contr.Idx) :
    (d.lhsIdx j k 0 : ℕ) = j 0 := by
  obtain ⟨lc, rc, ln, rn, lb, rb, wf⟩ := d
  obtain ⟨h1, h2, h3, h4, h5, h6⟩ := h
  simp only at h1 h2 h3 h4 h5 h6
  subst h1 h2 h3 h4 h5 h6
  simp [DotDims.lhsIdx]; rfl

/-- `A · Bᵀ`: the right operand's row coordinate is the result's column. -/
theorem abt_rhs_row (h : IsABt d) (j : (⟨2, ![M, N]⟩ : Shape).Idx) (k : d.contr.Idx) :
    (d.rhsIdx j k 0 : ℕ) = j 1 := by
  obtain ⟨lc, rc, ln, rn, lb, rb, wf⟩ := d
  obtain ⟨h1, h2, h3, h4, h5, h6⟩ := h
  simp only at h1 h2 h3 h4 h5 h6
  subst h1 h2 h3 h4 h5 h6
  simp [DotDims.rhsIdx]; rfl

theorem abt_contr_rank (h : IsABt d) : d.contr.rank = 1 := by
  rw [d.rank_contr, h.lc]; rfl

theorem abt_contr_size (h : IsABt d) : d.contr.size ⟨0, by rw [abt_contr_rank h]; exact Nat.one_pos⟩ = K := by
  obtain ⟨lc, rc, ln, rn, lb, rb, wf⟩ := d
  obtain ⟨h1, h2, h3, h4, h5, h6⟩ := h
  simp only at h1 h2 h3 h4 h5 h6
  subst h1 h2 h3 h4 h5 h6
  rfl

/-- `A · Bᵀ`, the sum: over the one contracted axis (each operand's second), entry by entry. -/
theorem abt_sum_eq (h : IsABt d) (lhs : (⟨2, ![M, K]⟩ : Shape).Idx → EReal) (rhs : (⟨2, ![N, K]⟩ : Shape).Idx → EReal)
    (p : Fin M) (q : Fin N) :
    ∑ k : d.contr.Idx, lhs (d.lhsIdx (ix2 p q) k) * rhs (d.rhsIdx (ix2 p q) k) = ∑ i : Fin K, lhs (ix2 p i) * rhs (ix2 q i) := by
  rw [← Equiv.sum_comp (contrEquiv1 d K (abt_contr_rank h) (abt_contr_size h)).symm]
  refine Finset.sum_congr rfl fun i _ => ?_
  have hk := contrEquiv1_symm_val d K (abt_contr_rank h) (abt_contr_size h) i
  have el : d.lhsIdx (ix2 p q) ((contrEquiv1 d K (abt_contr_rank h) (abt_contr_size h)).symm i) = ix2 p i := by
    funext a; refine Fin.ext ?_
    match a with
    | ⟨0, _⟩ => exact abt_lhs_row h _ _
    | ⟨1, _⟩ => exact (d.lhsIdx_val_of_single h.lc _ _).trans hk
  have er : d.rhsIdx (ix2 p q) ((contrEquiv1 d K (abt_contr_rank h) (abt_contr_size h)).symm i) = ix2 q i := by
    funext a; refine Fin.ext ?_
    match a with
    | ⟨0, _⟩ => exact abt_rhs_row h _ _
    | ⟨1, _⟩ => exact (d.rhsIdx_val_of_single h.rc _ _).trans hk
  rw [el, er]

end ABt

section AtB

variable {d : DotDims ⟨2, ![K, M]⟩ ⟨2, ![K, N]⟩ ⟨2, ![M, N]⟩}

/-- `Aᵀ · B`: the left operand's column coordinate is the result's row. -/
theorem atb_lhs_col (h : IsAtB d) (j : (⟨2, ![M, N]⟩ : Shape).Idx) (k : d.contr.Idx) :
    (d.lhsIdx j k 1 : ℕ) = j 0 := by
  obtain ⟨lc, rc, ln, rn, lb, rb, wf⟩ := d
  obtain ⟨h1, h2, h3, h4, h5, h6⟩ := h
  simp only at h1 h2 h3 h4 h5 h6
  subst h1 h2 h3 h4 h5 h6
  simp [DotDims.lhsIdx]; rfl

/-- `Aᵀ · B`: the right operand's column coordinate is the result's column. -/
theorem atb_rhs_col (h : IsAtB d) (j : (⟨2, ![M, N]⟩ : Shape).Idx) (k : d.contr.Idx) :
    (d.rhsIdx j k 1 : ℕ) = j 1 := by
  obtain ⟨lc, rc, ln, rn, lb, rb, wf⟩ := d
  obtain ⟨h1, h2, h3, h4, h5, h6⟩ := h
  simp only at h1 h2 h3 h4 h5 h6
  subst h1 h2 h3 h4 h5 h6
  simp [DotDims.rhsIdx]; rfl

theorem atb_contr_rank (h : IsAtB d) : d.contr.rank = 1 := by
  rw [d.rank_contr, h.lc]; rfl

theorem atb_contr_size (h : IsAtB d) : d.contr.size ⟨0, by rw [atb_contr_rank h]; exact Nat.one_pos⟩ = K := by
  obtain ⟨lc, rc, ln, rn, lb, rb, wf⟩ := d
  obtain ⟨h1, h2, h3, h4, h5, h6⟩ := h
  simp only at h1 h2 h3 h4 h5 h6
  subst h1 h2 h3 h4 h5 h6
  rfl

/-- `Aᵀ · B`, the sum: over the one contracted axis (each operand's first), entry by entry. -/
theorem atb_sum_eq (h : IsAtB d) (lhs : (⟨2, ![K, M]⟩ : Shape).Idx → EReal) (rhs : (⟨2, ![K, N]⟩ : Shape).Idx → EReal)
    (p : Fin M) (q : Fin N) :
    ∑ k : d.contr.Idx, lhs (d.lhsIdx (ix2 p q) k) * rhs (d.rhsIdx (ix2 p q) k) = ∑ i : Fin K, lhs (ix2 i p) * rhs (ix2 i q) := by
  rw [← Equiv.sum_comp (contrEquiv1 d K (atb_contr_rank h) (atb_contr_size h)).symm]
  refine Finset.sum_congr rfl fun i _ => ?_
  have hk := contrEquiv1_symm_val d K (atb_contr_rank h) (atb_contr_size h) i
  have el : d.lhsIdx (ix2 p q) ((contrEquiv1 d K (atb_contr_rank h) (atb_contr_size h)).symm i) = ix2 i p := by
    funext a; refine Fin.ext ?_
    match a with
    | ⟨0, _⟩ => exact (d.lhsIdx_val_of_single h.lc _ _).trans hk
    | ⟨1, _⟩ => exact atb_lhs_col h _ _
  have er : d.rhsIdx (ix2 p q) ((contrEquiv1 d K (atb_contr_rank h) (atb_contr_size h)).symm i) = ix2 i q := by
    funext a; refine Fin.ext ?_
    match a with
    | ⟨0, _⟩ => exact (d.rhsIdx_val_of_single h.rc _ _).trans hk
    | ⟨1, _⟩ => exact atb_rhs_col h _ _
  rw [el, er]

end AtB

/-- A kernel's `A · Bᵀ` into a zero accumulator, at the exact instance, read at an entry. -/
theorem abt_matmul_zero_apply {d : DotDims ⟨2, ![M, K]⟩ ⟨2, ![N, K]⟩ ⟨2, ![M, N]⟩} (h : IsABt d) {φ₁ φ₂ : FTy}
    (prec : Option ContractPrecision) (lhs : FVec Ideal ⟨2, ![M, K]⟩ φ₁) (rhs : FVec Ideal ⟨2, ![N, K]⟩ φ₂) (p : Fin M) (q : Fin N) :
    matmul d prec lhs rhs (constant ⟨2, ![M, N]⟩ .f32 0x00000000#32) (ix2 p q) = ∑ i : Fin K, lhs (ix2 p i) * rhs (ix2 q i) := by
  exact (Ideal.matmul_constant_zero_apply d prec lhs rhs (ix2 p q)).trans (abt_sum_eq h lhs rhs p q)

/-- A kernel's `Aᵀ · B` into a zero accumulator, at the exact instance, read at an entry. -/
theorem atb_matmul_zero_apply {d : DotDims ⟨2, ![K, M]⟩ ⟨2, ![K, N]⟩ ⟨2, ![M, N]⟩} (h : IsAtB d) {φ₁ φ₂ : FTy}
    (prec : Option ContractPrecision) (lhs : FVec Ideal ⟨2, ![K, M]⟩ φ₁) (rhs : FVec Ideal ⟨2, ![K, N]⟩ φ₂) (p : Fin M) (q : Fin N) :
    matmul d prec lhs rhs (constant ⟨2, ![M, N]⟩ .f32 0x00000000#32) (ix2 p q) = ∑ i : Fin K, lhs (ix2 i p) * rhs (ix2 i q) := by
  exact (Ideal.matmul_constant_zero_apply d prec lhs rhs (ix2 p q)).trans (atb_sum_eq h lhs rhs p q)

/-- The host's `A · Bᵀ` as a `dot_general`, at the exact instance, read at an entry: the same sum. -/
theorem abt_dotGeneral_apply {d : DotDims ⟨2, ![M, K]⟩ ⟨2, ![N, K]⟩ ⟨2, ![M, N]⟩} (h : IsABt d) {φ₁ φ₂ : FTy}
    (prec : Option ContractPrecision) (sched : HostSchedule)
    (lhs : FVec Ideal ⟨2, ![M, K]⟩ φ₁) (rhs : FVec Ideal ⟨2, ![N, K]⟩ φ₂) (p : Fin M) (q : Fin N) :
    FloatOps.dotGeneral d prec sched lhs rhs (ix2 p q) = ∑ i : Fin K, lhs (ix2 p i) * rhs (ix2 q i) :=
  (Ideal.dotGeneral_apply d prec sched lhs rhs (ix2 p q)).trans (abt_sum_eq h lhs rhs p q)

/-- The host's `Aᵀ · B` as a `dot_general`, at the exact instance, read at an entry: the same sum. -/
theorem atb_dotGeneral_apply {d : DotDims ⟨2, ![K, M]⟩ ⟨2, ![K, N]⟩ ⟨2, ![M, N]⟩} (h : IsAtB d) {φ₁ φ₂ : FTy}
    (prec : Option ContractPrecision) (sched : HostSchedule)
    (lhs : FVec Ideal ⟨2, ![K, M]⟩ φ₁) (rhs : FVec Ideal ⟨2, ![K, N]⟩ φ₂) (p : Fin M) (q : Fin N) :
    FloatOps.dotGeneral d prec sched lhs rhs (ix2 p q) = ∑ i : Fin K, lhs (ix2 i p) * rhs (ix2 i q) :=
  (Ideal.dotGeneral_apply d prec sched lhs rhs (ix2 p q)).trans (atb_sum_eq h lhs rhs p q)

end DotForms

end
-- ==== Proof.TilePartial.lean ====
/-
  One tile's partial sum, as the kernel body computes it, read at a feature `q`: the 2000 rows of the tile's two input
  blocks, concatenated along the columns, times the rows of the weight block (a product with the transpose), plus the bias
  row, cut below at zero, summed over the tile's rows from zero.
-/
import proofs.«140598_j47545287967106_1_alg».proof.Proof.Gen.KernelIdeal.Skeleton
import proofs.«140598_j47545287967106_1_alg».proof.Proof.LibDotForms
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.TileValue

open Cert.KernelIdeal Cert.KernelIdeal.Gen Idealize.ShloMosaic Idealize.ShloMosaic.ValueIdx

/-- Row `s`, column `k` of the two blocks side by side. -/
def catBlk (a0 a1 : Vec Ideal S2000x256 .f32) (s : Fin 2000) (k : Fin 512) : EReal :=
  if h : k.val < 256 then a0 (ix2 s ⟨k.val, h⟩) else a1 (ix2 s ⟨k.val - 256, by have := k.isLt; omega⟩)

/-- The weight record contracts the second axis of both operands: a product with the transpose. -/
theorem dot_isABt : DotForms.IsABt dot_S2000x512_S512x512_S2000x512_1_1_0_0_n_n := ⟨rfl, rfl, rfl, rfl, rfl, rfl⟩

/-- The sum over the rows of a 2000 × 512 array from the zero word, laid out as one row, at feature `q`: the sum of
    the column `q`. -/
theorem rowSum_apply (v : FVec Ideal S2000x512 .f32) (hφ : FKind.Formats .f32)
    (hacc : (0x00000000#32 : BitVec 32) = 0x00000000#32) (q : Fin 512) :
    shapeCast S1x512 (multiReduction (F := Ideal) .add [0] S512 v 0x00000000#32 reduces_S2000x512_S512 hφ hacc)
        shapeCasts_S512_S1x512 (ix2 0 q)
      = ∑ s : Fin 2000, v (ix2 s q) := by
  refine (shapeCast_a_1a_apply _ shapeCasts_S512_S1x512 0 q).trans ?_
  refine (Ideal.multiReduction_add_single v 0x00000000#32 reduces_S2000x512_S512 hφ hacc (ix1 q)).trans ?_
  refine Finset.sum_congr rfl fun s _ => congrArg v ?_
  funext a
  match a with
  | ⟨0, _⟩ => rfl
  | ⟨1, _⟩ => rfl

/-- The two blocks, each changed to the narrower format (the identity on the values), concatenated along the columns,
    at row `s` and column `k`: the left block below column 256, the right block from there on. -/
theorem cat_apply (a0 a1 : Vec Ideal S2000x256 .f32) (s : Fin 2000) (k : Fin 512) :
    concatenate S2000x512 1
        [⟨S2000x256, (truncf .bf16 a0 bitsLt_bf16_f32 : FVec Ideal S2000x256 .bf16)⟩,
         ⟨S2000x256, (truncf .bf16 a1 bitsLt_bf16_f32 : FVec Ideal S2000x256 .bf16)⟩]
        concatenates_S2000x256_S2000x256_S2000x512_d1 (ix2 s k)
      = catBlk a0 a1 s k := by
  unfold catBlk
  by_cases h : k.val < 256
  · rw [dif_pos h]
    refine concatenate_pair_apply_left (t := S2000x512) (s₁ := S2000x256) (s₂ := S2000x256) (1 : Fin 2) _ _ _ (ix2 s k) rfl
      (ix2 s (⟨k.val, h⟩ : Fin 256)) fun b => ?_
    match b with
    | ⟨0, _⟩ => rfl
    | ⟨1, _⟩ => rfl
  · rw [dif_neg h]
    refine concatenate_pair_apply_right (t := S2000x512) (s₁ := S2000x256) (s₂ := S2000x256) (1 : Fin 2) _ _ _ (ix2 s k) rfl rfl
      (ix2 s (⟨k.val - 256, by have := k.isLt; omega⟩ : Fin 256)) (fun b hb => ?_) ?_
    · match b with
      | ⟨0, _⟩ => rfl
      | ⟨1, _⟩ => exact absurd rfl hb
    · show k.val - 256 + 256 = k.val
      omega

/-- The tile's partial sum at feature `q`. -/
theorem partial_apply (a0 a1 : Vec Ideal S2000x256 .f32) (w : Vec Ideal S512x512 .bf16) (bb : Vec Ideal S1x512 .f32) (q : Fin 512) :
    k0_pay1 (F := Ideal) a0 a1 w bb (ix2 0 q)
      = 0 + ∑ s : Fin 2000, max ((∑ k : Fin 512, catBlk a0 a1 s k * w (ix2 q k)) + bb (ix2 0 q)) 0 := by
  unfold k0_pay1
  refine (rowSum_apply _ _ _ q).trans ?_
  refine Eq.trans ?_ (zero_add _).symm
  refine Finset.sum_congr rfl fun s _ => ?_
  have hm : matmul dot_S2000x512_S512x512_S2000x512_1_1_0_0_n_n none
        (concatenate S2000x512 1
          [⟨S2000x256, (truncf .bf16 a0 bitsLt_bf16_f32 : FVec Ideal S2000x256 .bf16)⟩,
           ⟨S2000x256, (truncf .bf16 a1 bitsLt_bf16_f32 : FVec Ideal S2000x256 .bf16)⟩]
          concatenates_S2000x256_S2000x256_S2000x512_d1 : FVec Ideal S2000x512 .bf16)
        (shapeCast S512x512 w shapeCasts_S512x512_S512x512 : FVec Ideal S512x512 .bf16)
        (constant (F := Ideal) S2000x512 .f32 0x00000000#32) (ix2 s q)
      = ∑ k : Fin 512, catBlk a0 a1 s k * w (ix2 q k) := by
    refine (DotForms.abt_matmul_zero_apply dot_isABt none _ _ s q).trans ?_
    refine Finset.sum_congr rfl fun k _ => ?_
    rw [cat_apply, shapeCast_self]
  have hb : broadcastTo S2000x512 (shapeCast S1x512 bb shapeCasts_S1x512_S1x512) broadcasts_S1x512_S2000x512 (ix2 s q)
      = bb (ix2 0 q) := by
    rw [shapeCast_self]
    exact broadcastTo_1b_ab_apply bb broadcasts_S1x512_S2000x512 s q
  show max (_ + _) (Ideal.ofBits .f32 0x00000000#32) = _
  rw [hm, hb, Ideal.ofBits_zero_f32]

end Cert.KernelIdeal.TileValue

end
-- ==== Proof.Spec.lean ====
/-
  The readout both programs compute, as ONE function of the four argument arrays over the extended reals.

  With `x0, x1 : 200000 × 256`, `W : 512 × 512`, `b : 512`: row `r` of the concatenation `[x0 | x1]` (512 columns)
  is multiplied with row `q` of `W` (that is `[x0 | x1] · Wᵀ`), the bias `b q` is added, the result is cut below at
  zero, and these activations are summed over all 200000 rows: `readout q = ∑ r, max (∑ k, cat r k * W q k + b q) 0`.

  The kernel forms the same sum tile by tile: 100 tiles of 2000 rows, the first 50 tiles accumulated into one row
  vector and the last 50 into another, each starting from zero, the two added at the end. Over the extended reals
  addition is commutative and associative with neutral element zero (there is no cancellation here, so infinite
  entries change nothing), so the regrouped sum is the sum over all rows: `sum_tiles`, `accum_eq`.
-/
import Idealize.ShloMosaic.Lib.ValueIdx
import Idealize.ShloMosaic.PureOps.Ideal
import Mathlib.Algebra.BigOperators.Fin
import Mathlib.Algebra.BigOperators.Intervals

noncomputable section

open scoped BigOperators

namespace Readout

open Idealize.ShloMosaic Idealize.ShloMosaic.ValueIdx

/-- Row `r`, column `k` of the concatenation `[x0 | x1]` along the columns. -/
def catAt (x0 x1 : (⟨2, ![200000, 256]⟩ : Shape).Idx → EReal) (r : Fin 200000) (k : Fin 512) : EReal :=
  if h : k.val < 256 then x0 (ix2 r ⟨k.val, h⟩) else x1 (ix2 r ⟨k.val - 256, by have := k.isLt; omega⟩)

/-- The activation of row `r` at feature `q`: `max (∑ k, cat r k * W q k + b q) 0`. -/
def act (x0 x1 : (⟨2, ![200000, 256]⟩ : Shape).Idx → EReal) (W : (⟨2, ![512, 512]⟩ : Shape).Idx → EReal)
    (b : (⟨1, ![512]⟩ : Shape).Idx → EReal) (r : Fin 200000) (q : Fin 512) : EReal :=
  max ((∑ k : Fin 512, catAt x0 x1 r k * W (ix2 q k)) + b (ix1 q)) 0

/-- The readout: the activations summed over all rows, as a `1 × 512` array. -/
def G (x0 x1 : (⟨2, ![200000, 256]⟩ : Shape).Idx → EReal) (W : (⟨2, ![512, 512]⟩ : Shape).Idx → EReal)
    (b : (⟨1, ![512]⟩ : Shape).Idx → EReal) : (⟨2, ![1, 512]⟩ : Shape).Idx → EReal :=
  fun j => ∑ r : Fin 200000, act x0 x1 W b r (j 1)

/-- Row `s` of tile `t` (2000 rows a tile, 100 tiles). -/
def tileRow (t : Fin 100) (s : Fin 2000) : Fin 200000 := ⟨t.val * 2000 + s.val, by have := t.isLt; have := s.isLt; omega⟩

/-- One tile's partial sum of a family over the rows. -/
def tileSum (f : Fin 200000 → EReal) (t : Fin 100) : EReal := ∑ s : Fin 2000, f (tileRow t s)

/-- The same with the tile numbered by a natural number (zero past the last tile). -/
def tileSumN (f : Fin 200000 → EReal) (t : ℕ) : EReal := if h : t < 100 then tileSum f ⟨t, h⟩ else 0

/-- The kernel's running sum over the tiles `lo, lo + 1, …, lo + n`, in the kernel's own grouping: the accumulator starts
    from zero, and every tile's partial sum — itself summed from zero — is added on the right. -/
def run (f : Fin 200000 → EReal) (lo : ℕ) : ℕ → EReal
  | 0 => 0 + (0 + tileSumN f lo)
  | n + 1 => run f lo n + (0 + tileSumN f (lo + (n + 1)))

end Readout

end
-- ==== Proof.SumTiles.lean ====
/-
  The two halves of the kernel's tile-by-tile accumulation add up to the sum over all rows.
-/
import proofs.«140598_j47545287967106_1_alg».proof.Proof.Spec
import Mathlib.Logic.Equiv.Fin.Basic
import Mathlib.Algebra.BigOperators.Group.Finset.Basic

noncomputable section

open scoped BigOperators

namespace Readout

/-- The running sum in the kernel's grouping is the plain sum of the partial sums of the tiles `lo, …, lo + n`:
    the zeros the accumulator and every tile start from are neutral. -/
theorem run_eq_sum (f : Fin 200000 → EReal) (lo n : ℕ) :
    run f lo n = ∑ t ∈ Finset.range (n + 1), tileSumN f (lo + t) := by
  induction n with
  | zero => rw [run, zero_add, zero_add, Finset.sum_range_one, Nat.add_zero]
  | succ n ih => rw [run, ih, zero_add, Finset.sum_range_succ _ (n + 1)]

/-- Numbered by `Fin 100`, the partial sum with a natural tile number is the tile's partial sum. -/
theorem tileSumN_val (f : Fin 200000 → EReal) (t : Fin 100) : tileSumN f t.val = tileSum f t := by
  rw [tileSumN, dif_pos t.isLt]

/-- A sum over `m * n` indices, cut into `m` consecutive blocks of `n`: index `s + n * t` is place `s` of block `t`. -/
theorem sum_blocks (m n : ℕ) (g : Fin (m * n) → EReal) :
    ∑ t : Fin m, ∑ s : Fin n, g (finProdFinEquiv (t, s)) = ∑ r : Fin (m * n), g r := by
  rw [← Fintype.sum_prod_type']
  exact Fintype.sum_equiv finProdFinEquiv _ _ (fun _ => rfl)

/-- Row `s` of tile `t` is place `s` of block `t` when the 200000 rows are cut into 100 blocks of 2000. -/
theorem tileRow_eq (t : Fin 100) (s : Fin 2000) :
    tileRow t s = (finProdFinEquiv (t, s) : Fin (100 * 2000)) := by
  apply Fin.ext
  show t.val * 2000 + s.val = s.val + 2000 * t.val
  omega

/-- The 100 tiles' partial sums add up to the sum over all rows. -/
theorem sum_tileSum (f : Fin 200000 → EReal) : ∑ t : Fin 100, tileSum f t = ∑ r : Fin 200000, f r := by
  have h := sum_blocks 100 2000 f
  rw [← h]
  refine Finset.sum_congr rfl (fun t _ => ?_)
  rw [tileSum]
  refine Finset.sum_congr rfl (fun s _ => ?_)
  rw [tileRow_eq]

/-- Tiles 0..49 accumulated from zero, plus tiles 50..99 accumulated from zero, is the sum over all 200000 rows. -/
theorem run_total (f : Fin 200000 → EReal) : run f 0 49 + run f 50 49 = ∑ r : Fin 200000, f r := by
  rw [run_eq_sum, run_eq_sum]
  have h0 : ∑ t ∈ Finset.range (49 + 1), tileSumN f (0 + t) = ∑ t ∈ Finset.range 50, tileSumN f t :=
    Finset.sum_congr rfl (fun t _ => by rw [Nat.zero_add])
  rw [h0, ← Finset.sum_range_add (fun t => tileSumN f t) 50 (49 + 1), Finset.sum_range, ← sum_tileSum]
  exact Finset.sum_congr rfl (fun t _ => tileSumN_val f t)

end Readout

end
-- ==== Proof.KIValue.lean ====
/-
  What the idealized kernel's result holds: the readout `Readout.G` of the four argument arrays.

  Over the extended reals every float format change is the identity, so the weight block the kernel multiplies with is
  the argument `W` itself and the bias row is the argument `b` laid out as a row. A tile's partial sum at feature `q`
  is the sum, over the tile's 2000 rows `r`, of the activation `max (∑ k, [x0|x1] r k · W q k + b q) 0` (taken from zero),
  and adding it to a row adds it entry by entry. Hence after point `n` of the first half output 0's buffer holds, at
  `q`, the running sum of tiles `0..n` in the kernel's grouping, and after point `50 + n` output 1's holds that of
  tiles `50..50+n`. The program's result is the sum of the two final rows, which is the sum over all rows.
-/
import proofs.«140598_j47545287967106_1_alg».proof.Proof.KIFrame
import proofs.«140598_j47545287967106_1_alg».proof.Proof.KIArrays
import proofs.«140598_j47545287967106_1_alg».proof.Proof.TilePartial
import proofs.«140598_j47545287967106_1_alg».proof.Proof.SumTiles
import Idealize.ShloMosaic.Lib.StableHlo.Run
import Idealize.ShloMosaic.Lib.Pipeline.Value
import Idealize.ShloMosaic.Lib.ValueLayout

set_option maxRecDepth 16384

noncomputable section

open scoped BigOperators

namespace Cert.KernelIdeal.Body

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! ## The host operations around the region, at any instance -/

section Host

variable {F : FTy → Type} [FloatOps F]
variable (m : (ℓ : Loc nD τ sig) → Buf (Elt F) ℓ)

/-- The weight array the region stages is the argument `W` changed to the narrower format. -/
theorem arr2_eq (c : Dev nD) :
    arr2 m c = truncf .bf16 (m ((c : Thread nD τ).loc main_arg2) : Vec F S512x512 .f32) bitsLt_bf16_f32 := by
  show StableHlo.after hostOps0 (fun b => m (c, b)) (Proc.devRef .tc main_v0) = _
  after_results

/-- The bias array the region stages is the argument `b` laid out as one row. -/
theorem arr3_eq (c : Dev nD) :
    arr3 m c = shapeCast S1x512 (m ((c : Thread nD τ).loc main_arg3) : Vec F S512 .f32) shapeCasts_S512_S1x512 := by
  show StableHlo.after hostOps0 (fun b => m (c, b)) (Proc.devRef .tc main_v1) = _
  after_results
  rfl

/-- The program's result is the sum of the two output arrays as the region leaves them. -/
theorem tail_eq (c : Dev nD) : Pipeline.afterTail₀ cfgs (dats m) 0 (V0 m) [hostOps1] c main_v3
    = addf ((dats m 0 c).arrAt 4 cfg0.N : Vec F S1x512 .f32) ((dats m 0 c).arrAt 5 cfg0.N : Vec F S1x512 .f32) := by
  unfold Pipeline.afterTail₀
  show StableHlo.after hostOps1 _ (Proc.devRef .tc main_v3) = _
  after_results
  exact congrArg₂ addf (Pipeline.withArrays_arr spec0 launch0.win.arr_inj c _ _ 4) (Pipeline.withArrays_arr spec0 launch0.win.arr_inj c _ _ 5)

end Host

/-! ## At the exact instance -/

variable (m : (ℓ : Loc nD τ sig) → Buf (Elt Ideal) ℓ) (ρ : Dev nD → PrngReg)

/-- The four argument arrays. -/
abbrev x0 (c : Dev nD) : Vec Ideal S200000x256 .f32 := m ((c : Thread nD τ).loc main_arg0)
abbrev x1 (c : Dev nD) : Vec Ideal S200000x256 .f32 := m ((c : Thread nD τ).loc main_arg1)
abbrev x2 (c : Dev nD) : Vec Ideal S512x512 .f32 := m ((c : Thread nD τ).loc main_arg2)
abbrev x3 (c : Dev nD) : Vec Ideal S512 .f32 := m ((c : Thread nD τ).loc main_arg3)

theorem arr0_eq (c : Dev nD) : arr0 m c = x0 m c := V_main_arg0 m c
theorem arr1_eq (c : Dev nD) : arr1 m c = x1 m c := V_main_arg1 m c

/-- The staged weight array at an entry is `W` there. -/
theorem arr2_apply (c : Dev nD) (q k : Fin 512) : arr2 m c (ix2 q k) = x2 m c (ix2 q k) := by
  rw [arr2_eq]; rfl

/-- The staged bias row at feature `q` is `b q`. -/
theorem arr3_apply (c : Dev nD) (q : Fin 512) : arr3 m c (ix2 0 q) = x3 m c (ix1 q) := by
  rw [arr3_eq]
  exact shapeCast_a_1a_apply _ shapeCasts_S512_S1x512 0 q

/-- The activations at feature `q`, as a family over the rows. -/
abbrev actq (c : Dev nD) (q : Fin 512) : Fin 200000 → EReal := fun r => Readout.act (x0 m c) (x1 m c) (x2 m c) (x3 m c) r q

/-- The tile's two blocks side by side are the rows of `[x0 | x1]` the tile covers. -/
theorem cat_eq (c : Dev nD) (t : Fin cfg0.N) (s : Fin 2000) (k : Fin 512) :
    TileValue.catBlk (blk0 m c t) (blk1 m c t) s k = Readout.catAt (x0 m c) (x1 m c) (Readout.tileRow ⟨t.val, val_lt t⟩ s) k := by
  unfold TileValue.catBlk Readout.catAt
  by_cases h : k.val < 256
  · rw [dif_pos h, dif_pos h, blk0_apply, arr0_eq]; rfl
  · rw [dif_neg h, dif_neg h, blk1_apply, arr1_eq]; rfl

/-- The tile's partial sum at feature `q`: the tile's sum of the activations, from zero. -/
theorem part_apply (c : Dev nD) (t : Fin cfg0.N) (q : Fin 512) :
    k0_pay1 (F := Ideal) (blk0 m c t) (blk1 m c t) (blk2 m c t) (blk3 m c t) (ix2 0 q)
      = 0 + Readout.tileSumN (actq m c q) t.val := by
  rw [TileValue.partial_apply]
  refine congrArg (0 + ·) ?_
  unfold Readout.tileSumN
  rw [dif_pos (val_lt t)]
  unfold Readout.tileSum
  refine Finset.sum_congr rfl fun s _ => ?_
  show max _ 0 = max _ 0
  rw [blk3_apply, arr3_apply]
  refine congrArg (fun z => max (z + x3 m c (ix1 q)) 0) (Finset.sum_congr rfl fun k _ => ?_)
  rw [cat_eq, blk2_apply, arr2_apply]

/-- Adding the tile's partial sum to a row adds it entry by entry. -/
theorem pay4_apply (a0 a1 : Vec Ideal S2000x256 .f32) (w : Vec Ideal S512x512 .bf16) (bb xo : Vec Ideal S1x512 .f32) (q : Fin 512) :
    k0_pay4 (F := Ideal) a0 a1 w bb xo (ix2 0 q) = xo (ix2 0 q) + k0_pay1 (F := Ideal) a0 a1 w bb (ix2 0 q) := by
  unfold k0_pay4
  rw [shapeCast_self]
  rfl
theorem pay5_apply (a0 a1 : Vec Ideal S2000x256 .f32) (w : Vec Ideal S512x512 .bf16) (bb xo : Vec Ideal S1x512 .f32) (q : Fin 512) :
    k0_pay5 (F := Ideal) a0 a1 w bb xo (ix2 0 q) = xo (ix2 0 q) + k0_pay1 (F := Ideal) a0 a1 w bb (ix2 0 q) := by
  unfold k0_pay5
  rw [shapeCast_self]
  rfl
/-- The reset rows are zero. -/
theorem pay2_apply (q : Fin 512) : k0_pay2 (F := Ideal) (ix2 0 q) = 0 := by
  show Ideal.ofBits .f32 0x00000000#32 = 0
  exact Ideal.ofBits_zero_f32
theorem pay3_apply (q : Fin 512) : k0_pay3 (F := Ideal) (ix2 0 q) = 0 := by
  show Ideal.ofBits .f32 0x00000000#32 = 0
  exact Ideal.ofBits_zero_f32

/-- Output 0's buffer after point `n` of the first half, at feature `q`: the running sum of tiles `0..n`. -/
theorem acc0_apply (c : Dev nD) (q : Fin 512) : ∀ (n : ℕ) (hn : n < cfg0.N), n < 50 →
    acc0 m c n hn (ix2 0 q) = Readout.run (actq m c q) 0 n
  | 0, hn, _ => by
    refine (congrFun (acc0_first m c ⟨0, hn⟩ rfl) (ix2 0 q)).trans ?_
    rw [pay4_apply, pay2_apply]
    exact congrArg (0 + ·) (part_apply m c ⟨0, hn⟩ q)
  | n + 1, hn, h => by
    refine (congrFun (acc0_lo m c ⟨n + 1, hn⟩ (Nat.succ_ne_zero n) h) (ix2 0 q)).trans ?_
    rw [pay4_apply]
    show acc0 m c n _ (ix2 0 q) + _ = Readout.run (actq m c q) 0 n + (0 + Readout.tileSumN (actq m c q) (0 + (n + 1)))
    rw [acc0_apply c q n _ (by omega), Nat.zero_add]
    exact congrArg (Readout.run (actq m c q) 0 n + ·) (part_apply m c ⟨n + 1, hn⟩ q)

/-- Output 1's buffer after point `50 + n`, at feature `q`: the running sum of tiles `50..50+n`. -/
theorem acc1_apply (c : Dev nD) (q : Fin 512) : ∀ (n : ℕ) (hn : 50 + n < cfg0.N),
    acc1 m c (50 + n) hn (ix2 0 q) = Readout.run (actq m c q) 50 n
  | 0, hn => by
    refine (congrFun (acc1_first m c ⟨50 + 0, hn⟩ rfl) (ix2 0 q)).trans ?_
    rw [pay5_apply, pay3_apply]
    exact congrArg (0 + ·) (part_apply m c ⟨50 + 0, hn⟩ q)
  | n + 1, hn => by
    refine (congrFun (acc1_hi m c ⟨50 + (n + 1), hn⟩ (by show 50 < 50 + (n + 1); omega)) (ix2 0 q)).trans ?_
    rw [pay5_apply]
    show acc1 m c (50 + n) _ (ix2 0 q) + _ = Readout.run (actq m c q) 50 n + (0 + Readout.tileSumN (actq m c q) (50 + (n + 1)))
    rw [acc1_apply c q n (Nat.lt_of_succ_lt hn)]
    exact congrArg (Readout.run (actq m c q) 50 n + ·) (part_apply m c ⟨50 + (n + 1), hn⟩ q)

/-- The program's result is the readout of the argument arrays. -/
theorem result_eq (c : Dev nD) :
    Pipeline.afterTail₀ cfgs (dats m) 0 (V0 m) [hostOps1] c main_v3 = Readout.G (x0 m c) (x1 m c) (x2 m c) (x3 m c) := by
  rw [tail_eq, final4, final5]
  funext j
  obtain ⟨p, q, rfl⟩ : ∃ (p : Fin 1) (q : Fin 512), j = ix2 p q := ⟨j 0, j 1, eq_ix2 j⟩
  obtain rfl : p = 0 := Subsingleton.elim _ _
  show acc0 m c 49 _ (ix2 0 q) + acc1 m c 99 _ (ix2 0 q) = ∑ r : Fin 200000, actq m c q r
  rw [acc0_apply m c q 49 _ (by decide), acc1_apply m c q 49 last_lt]
  exact Readout.run_total _

/-- The run, read: the result array holds the readout and the argument arrays are unchanged. -/
theorem run_value : θ_run defs (onTc (τ := τ) (main (F := Ideal))) ⟨m, fun _ => 0, ρ⟩ (fun r => ∀ c : Dev nD,
      r.2.mem ((c.tc : Thread nD τ).loc main_v3) = Readout.G (x0 m c) (x1 m c) (x2 m c) (x3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨((h c).2 main_v3 (Pipeline.mem_restRefs_of main_v3 (by decide) (by decide))).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Body

end
-- ==== Proof.RefValue.lean ====
/-
  The reference's result, read one operation at a time, is the readout `Readout.G` of the four argument arrays.
-/
import proofs.«140598_j47545287967106_1_alg».proof.Proof.Gen.ReferenceIdeal.Read
import proofs.«140598_j47545287967106_1_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx

/-- The concatenation along the columns at row `r`, column `k`: the left array below column 256, the right array,
    256 columns back, from there on. -/
theorem val_main_v0_ix (x0 x1 : (⟨S200000x256, .f32⟩ : BufTy).Contents (Elt Ideal)) (r : Fin 200000) (k : Fin 512) :
    val_main_v0 (F := Ideal) x0 x1 (ix2 r k) = Readout.catAt x0 x1 r k := by
  unfold val_main_v0 Readout.catAt
  by_cases h : k.val < 256
  · rw [dif_pos h]
    exact concatenate_pair_apply_left _ x0 x1 concatenates_S200000x256_S200000x256_S200000x512_d1 (ix2 r k) rfl
      (ix2 r ⟨k.val, h⟩) (fun b => by match b with | ⟨0, _⟩ => rfl | ⟨1, _⟩ => rfl)
  · rw [dif_neg h]
    exact concatenate_pair_apply_right _ x0 x1 concatenates_S200000x256_S200000x256_S200000x512_d1 (ix2 r k) rfl rfl
      (ix2 r ⟨k.val - 256, by have := k.isLt; omega⟩)
      (fun b hb => by match b, hb with | ⟨0, _⟩, _ => rfl | ⟨1, _⟩, hb => exact absurd rfl hb)
      (by show k.val - 256 + 256 = k.val; omega)

/-- Before the sum over the rows: at row `r`, feature `q`, the reference holds the activation
    `max (∑ k, [x0 | x1] r k * W q k + b q) 0` — the product with the transposed weights reads `W` at `(q, k)`. -/
theorem val_main_v6_ix (x0 x1 : (⟨S200000x256, .f32⟩ : BufTy).Contents (Elt Ideal)) (x2 : (⟨S512x512, .f32⟩ : BufTy).Contents (Elt Ideal))
    (x3 : (⟨S512, .f32⟩ : BufTy).Contents (Elt Ideal)) (r : Fin 200000) (q : Fin 512) :
    val_main_v6 (F := Ideal) x0 x1 x2 x3 (ix2 r q) = Readout.act x0 x1 x2 x3 r q := by
  rw [val_main_v6_apply, val_main_v5_apply, val_main_v2_apply, val_main_v4_apply, val_main_v3_apply,
    val_main_call0_v0_apply, val_main_call0_cst_apply, Ideal.maximumf_def, Ideal.addf_def, Ideal.ofBits_def,
    Ideal.ofBits_zero_f32]
  unfold Readout.act
  have hb : idx_main_v3 (idx_main_v4 (ix2 r q)) = ix1 q :=
    funext fun a => Fin.ext (by match a with | ⟨0, _⟩ => rfl)
  have hs : ∀ k : Fin 512,
      val_main_v0 (F := Ideal) x0 x1 (lidx_main_v2 (ix2 r q) k) * val_main_v1 (F := Ideal) x2 (ridx_main_v2 (ix2 r q) k)
        = Readout.catAt x0 x1 r k * x2 (ix2 q k) := by
    intro k
    have hl : lidx_main_v2 (ix2 r q) k = ix2 r k :=
      funext fun a => Fin.ext (by match a with | ⟨0, _⟩ => rfl | ⟨1, _⟩ => rfl)
    have hr : idx_main_v1 (ridx_main_v2 (ix2 r q) k) = ix2 q k :=
      funext fun a => Fin.ext (by match a with | ⟨0, _⟩ => rfl | ⟨1, _⟩ => rfl)
    rw [val_main_v1_apply, hl, hr, val_main_v0_ix]
  rw [hb, Finset.sum_congr rfl (fun k _ => hs k)]

/-- The reference's last stage is the readout. -/
theorem ref_eq_G (x0 x1 : (⟨S200000x256, .f32⟩ : BufTy).Contents (Elt Ideal)) (x2 : (⟨S512x512, .f32⟩ : BufTy).Contents (Elt Ideal))
    (x3 : (⟨S512, .f32⟩ : BufTy).Contents (Elt Ideal)) :
    val_main_v8 (F := Ideal) x0 x1 x2 x3 = Readout.G x0 x1 x2 x3 := by
  funext j
  rw [val_main_v8_apply, val_main_v7_apply, val_main_cst_apply, Ideal.ofBits_def, Ideal.ofBits_zero_f32, zero_add]
  unfold Readout.G
  refine Finset.sum_congr rfl (fun r _ => ?_)
  have hi : idx_main_v7 (idx_main_v8 j) r = ix2 r (j 1) :=
    funext fun a => Fin.ext (by match a with | ⟨0, _⟩ => rfl | ⟨1, _⟩ => rfl)
  rw [hi]
  exact val_main_v6_ix x0 x1 x2 x3 r (j 1)

end Cert.ReferenceIdeal.RefValue

end
-- ==== Proof.lean ====
/-
  A readout layer: two 200000×256 arrays are concatenated along the columns, multiplied with the transpose of a 512×512
  weight matrix, a bias is added, the result is cut below at zero, and these activations are summed over all 200000
  rows into one 1×512 row.

  The kernel walks the rows in 100 tiles of 2000 on a 2×50 grid. The first half of the grid accumulates its tiles'
  partial sums into one output row, the second half into another, each reset to zero at its first tile; while one
  output is accumulated the other's buffer is not touched, and both rows are written back once, after the last grid
  point. The program's result is the sum of the two rows.

  Over the extended reals the kernel's narrowing of its inputs to a shorter float format is the identity, its product
  with the transposed weight block into a zero accumulator is the reference's matrix product entry by entry, and the
  kernel's grouping of the row sum — by tile, by half, each from zero — is the plain sum over all rows, because addition
  there is commutative and associative with neutral element zero (no cancellation is used, so no finiteness either).

  The three frames: both kernels' from the pipeline's launch rule with proof data that name what each output buffer
  holds after every grid point (an idle buffer carries what the last live point left); the reference's from its run.
  The idealization rewrote nothing, so there is nothing to preserve.
-/
import proofs.«140598_j47545287967106_1_alg».proof.Defs
import proofs.«140598_j47545287967106_1_alg».proof.Proof.Gen.Kernel
import proofs.«140598_j47545287967106_1_alg».proof.Proof.Gen.KernelIdeal
import proofs.«140598_j47545287967106_1_alg».proof.Proof.Gen.ReferenceIdeal
import proofs.«140598_j47545287967106_1_alg».proof.Proof.Gen.Pre_finite_inputs
import proofs.«140598_j47545287967106_1_alg».proof.Proof.Gen.ReferenceIdeal.Run
import proofs.«140598_j47545287967106_1_alg».proof.Proof.Gen.ReferenceIdeal.Read
import proofs.«140598_j47545287967106_1_alg».proof.Proof.KFrame
import proofs.«140598_j47545287967106_1_alg».proof.Proof.KIFrame
import proofs.«140598_j47545287967106_1_alg».proof.Proof.KIValue
import proofs.«140598_j47545287967106_1_alg».proof.Proof.RefValue
import Idealize.ShloMosaic.Adequacy
import Idealize.ShloMosaic.Init

noncomputable section

namespace Cert.Proof

open Idealize.ShloMosaic Idealize.SL.Sem

/-- The kernel as printed runs and leaves its arguments unchanged. -/
theorem frame_k : Cert.frame_Kernel := fun m ρ _ => Cert.Kernel.Body.frame m ρ

/-- The idealized kernel runs and leaves its arguments unchanged. -/
theorem frame_ki : Cert.frame_KernelIdeal := fun m ρ _ => Cert.KernelIdeal.Body.frame m ρ

/-- The reference runs and leaves its arguments unchanged: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the four arguments the idealized kernel and the reference both end with the readout of
    those arguments in their result arrays. -/
theorem algebraic : Cert.algebraic_KernelIdeal_ReferenceIdeal := by
  intro m ρ m' ρ' _ hagree
  refine ⟨fun c => Readout.G (Cert.KernelIdeal.Body.x0 m c) (Cert.KernelIdeal.Body.x1 m c) (Cert.KernelIdeal.Body.x2 m c) (Cert.KernelIdeal.Body.x3 m c),
    Cert.KernelIdeal.Body.run_value m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v8_eq _ _ _ _).trans (Cert.ReferenceIdeal.RefValue.ref_eq_G _ _ _ _)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
